-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S256x256x16 : Shape := ⟨3, ![256, 256, 16]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x256x16 : S_.BroadcastsInDim S256x256x16 (![] : Fin 0 → Fin S256x256x16.rank)
  reducesTo_S256x256x16_S_d0_1_2 : S256x256x16.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S1024x256 .f32) (main_arg1 : FVec F S256x256 .f32) (main_arg2 : FVec F S256x256x16 .f32) (main_arg3 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256x16 .f32 := Host.absf main_arg2
  let main_cst_2 : FVec F S_ .f32 := constant S_ .f32 0x7F800000#32
  let main_v10 : FVec F S256x256x16 .f32 := broadcastInDim S256x256x16 ![] bcast_S_S256x256x16 main_cst_2
  let main_v11 : IVec S256x256x16 1 := cmpf .olt main_v9 main_v10
  let main_c_3 : IVec S_ 1 := constantI S_ 1 1#1
  let main_v12 : IVec S_ 1 := (fun x v => Host.reduce IntOp.andi x v reducesTo_S256x256x16_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S1024x256 : Shape := ⟨2, ![1024, 256]⟩
abbrev S256x256 : Shape := ⟨2, ![256, 256]⟩
abbrev S256x256x16 : Shape := ⟨3, ![256, 256, 16]⟩
abbrev S256 : Shape := ⟨1, ![256]⟩
abbrev S1x256 : Shape := ⟨2, ![1, 256]⟩
abbrev S32x256 : Shape := ⟨2, ![32, 256]⟩
abbrev S128x256 : Shape := ⟨2, ![128, 256]⟩
abbrev S128x256x16 : Shape := ⟨3, ![128, 256, 16]⟩
abbrev S1x128 : Shape := ⟨2, ![1, 128]⟩
abbrev S32x128 : Shape := ⟨2, ![32, 128]⟩
abbrev S32x1x256 : Shape := ⟨3, ![32, 1, 256]⟩
abbrev S1x128x256 : Shape := ⟨3, ![1, 128, 256]⟩
abbrev S32x128x256 : Shape := ⟨3, ![32, 128, 256]⟩
abbrev S128x256x1 : Shape := ⟨3, ![128, 256, 1]⟩

abbrev nBuf : Space → Nat
  | .hbm => 6
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256x16, .f32⟩
  | .hbm, ⟨3, _⟩ => ⟨S256, .f32⟩
  | .hbm, ⟨4, _⟩ => ⟨S1x256, .f32⟩
  | .hbm, ⟨5, _⟩ => ⟨S1024x256, .f32⟩
  | .local _ .vmem, ⟨0, _⟩ => ⟨S32x256, .f32⟩
  | .local _ .vmem, ⟨1, _⟩ => ⟨S32x256, .f32⟩
  | .local _ .vmem, ⟨2, _⟩ => ⟨S128x256, .f32⟩
  | .local _ .vmem, ⟨3, _⟩ => ⟨S128x256, .f32⟩
  | .local _ .vmem, ⟨4, _⟩ => ⟨S128x256x16, .f32⟩
  | .local _ .vmem, ⟨5, _⟩ => ⟨S128x256x16, .f32⟩
  | .local _ .vmem, ⟨6, _⟩ => ⟨S1x128, .f32⟩
  | .local _ .vmem, ⟨7, _⟩ => ⟨S1x128, .f32⟩
  | .local _ .vmem, ⟨8, _⟩ => ⟨S32x128, .f32⟩
  | .local _ .vmem, ⟨9, _⟩ => ⟨S32x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256_S1x256 : S256.ShapeCasts S1x256
  inb_S32x256_S32x256_0_0 : ∀ a, (![0, 0] : Fin 2 → Nat) a + S32x256.size a ≤ S32x256.size a
  h_S32x256 : 0 < S32x256.numel
  inb_S128x256_S128x256_0_0 : ∀ a, (![0, 0] : Fin 2 → Nat) a + S128x256.size a ≤ S128x256.size a
  h_S128x256 : 0 < S128x256.numel
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  inb_S128x256x16_S128x256x1_0_0_0 : ∀ a, (![0, 0, 0] : Fin 3 → Nat) a + S128x256x1.size a ≤ S128x256x16.size a
  h_S128x256x1 : 0 < S128x256x1.numel
  shapeCasts_S128x256x1_S128x256 : S128x256x1.ShapeCasts S128x256
  reduces_S32x128x256_S32x128 : S32x128x256.Reduces [2] S32x128
  inb_S128x256x16_S128x256x1_0_0_1 : ∀ a, (![0, 0, 1] : Fin 3 → Nat) a + S128x256x1.size a ≤ S128x256x16.size a
  inb_S128x256x16_S128x256x1_0_0_2 : ∀ a, (![0, 0, 2] : Fin 3 → Nat) a + S128x256x1.size a ≤ S128x256x16.size a
  inb_S128x256x16_S128x256x1_0_0_3 : ∀ a, (![0, 0, 3] : Fin 3 → Nat) a + S128x256x1.size a ≤ S128x256x16.size a
  inb_S128x256x16_S128x256x1_0_0_4 : ∀ a, (![0, 0, 4] : Fin 3 → Nat) a + S128x256x1.size a ≤ S128x256x16.size a
  inb_S128x256x16_S128x256x1_0_0_5 : ∀ a, (![0, 0, 5] : Fin 3 → Nat) a + S128x256x1.size a ≤ S128x256x16.size a
  inb_S128x256x16_S128x256x1_0_0_6 : ∀ a, (![0, 0, 6] : Fin 3 → Nat) a + S128x256x1.size a ≤ S128x256x16.size a
  inb_S128x256x16_S128x256x1_0_0_7 : ∀ a, (![0, 0, 7] : Fin 3 → Nat) a + S128x256x1.size a ≤ S128x256x16.size a
  inb_S128x256x16_S128x256x1_0_0_8 : ∀ a, (![0, 0, 8] : Fin 3 → Nat) a + S128x256x1.size a ≤ S128x256x16.size a
  inb_S128x256x16_S128x256x1_0_0_9 : ∀ a, (![0, 0, 9] : Fin 3 → Nat) a + S128x256x1.size a ≤ S128x256x16.size a
  inb_S128x256x16_S128x256x1_0_0_10 : ∀ a, (![0, 0, 10] : Fin 3 → Nat) a + S128x256x1.size a ≤ S128x256x16.size a
  inb_S128x256x16_S128x256x1_0_0_11 : ∀ a, (![0, 0, 11] : Fin 3 → Nat) a + S128x256x1.size a ≤ S128x256x16.size a
  inb_S128x256x16_S128x256x1_0_0_12 : ∀ a, (![0, 0, 12] : Fin 3 → Nat) a + S128x256x1.size a ≤ S128x256x16.size a
  inb_S128x256x16_S128x256x1_0_0_13 : ∀ a, (![0, 0, 13] : Fin 3 → Nat) a + S128x256x1.size a ≤ S128x256x16.size a
  inb_S128x256x16_S128x256x1_0_0_14 : ∀ a, (![0, 0, 14] : Fin 3 → Nat) a + S128x256x1.size a ≤ S128x256x16.size a
  inb_S128x256x16_S128x256x1_0_0_15 : ∀ a, (![0, 0, 15] : Fin 3 → Nat) a + S128x256x1.size a ≤ S128x256x16.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S1024x256.size a
  hwx0_0 : ∀ i : grid0.Coords, EltTy.bits .f32 = 32 ∨ (Rect.block (s := S1024x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S256x256.size a
  hwx0_1 : ∀ i : grid0.Coords, EltTy.bits .f32 = 32 ∨ (Rect.block (s := S256x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256x16.size a ≤ S256x256x16.size a
  hwx0_2 : ∀ i : grid0.Coords, EltTy.bits .f32 = 32 ∨ (Rect.block (s := S256x256x16) S128x256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S1024x256.size a
  hwx0_4 : ∀ i : grid0.Coords, EltTy.bits .f32 = 32 ∨ (Rect.block (s := S1024x256) S32x128.size (cc0_transform_4 i) (hinb0_4 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S256x256x16 : Shape := ⟨3, ![256, 256, 16]⟩
abbrev S256 : Shape := ⟨1, ![256]⟩
abbrev S1024x1x256 : Shape := ⟨3, ![1024, 1, 256]⟩
abbrev S1x256x256 : Shape := ⟨3, ![1, 256, 256]⟩
abbrev S1024x256x256 : Shape := ⟨3, ![1024, 256, 256]⟩
abbrev S_ : Shape := ⟨0, ![]⟩
abbrev S1x256x1 : Shape := ⟨3, ![1, 256, 1]⟩
abbrev S1x1x256 : Shape := ⟨3, ![1, 1, 256]⟩
abbrev S1024x256x256x1 : Shape := ⟨4, ![1024, 256, 256, 1]⟩
abbrev S1024x256x256x3 : Shape := ⟨4, ![1024, 256, 256, 3]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256x16, .f32⟩
  | .hbm, ⟨3, _⟩ => ⟨S256, .f32⟩
  | .hbm, ⟨4, _⟩ => ⟨S1024x1x256, .f32⟩
  | .hbm, ⟨5, _⟩ => ⟨S1x256x256, .f32⟩
  | .hbm, ⟨6, _⟩ => ⟨S1024x256x256, .f32⟩
  | .hbm, ⟨7, _⟩ => ⟨S1024x256x256, .f32⟩
  | .hbm, ⟨8, _⟩ => ⟨S1024x256x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x256x256, .f32⟩
  | .hbm, ⟨13, _⟩ => ⟨S1024x256x256, .f32⟩
  | .hbm, ⟨14, _⟩ => ⟨S_, .f32⟩
  | .hbm, ⟨15, _⟩ => ⟨S1024x256x256, .f32⟩
  | .hbm, ⟨16, _⟩ => ⟨S1024x256x256, .f32⟩
  | .hbm, ⟨17, _⟩ => ⟨S_, .f32⟩
  | .hbm, ⟨18, _⟩ => ⟨S1024x256x256, .f32⟩
  | .hbm, ⟨19, _⟩ => ⟨S1024x256x256, .f32⟩
  | .hbm, ⟨20, _⟩ => ⟨S_, .f32⟩
  | .hbm, ⟨21, _⟩ => ⟨S1024x256x256, .f32⟩
  | .hbm, ⟨22, _⟩ => ⟨S1024x256x256, .f32⟩
  | .hbm, ⟨23, _⟩ => ⟨S1024x256x256, .f32⟩
  | .hbm, ⟨24, _⟩ => ⟨S1024x256x256, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x256x256, .i32⟩
  | .hbm, ⟨29, _⟩ => ⟨S1024x256x256, .i32⟩
  | .hbm, ⟨30, _⟩ => ⟨S_, .i32⟩
  | .hbm, ⟨31, _⟩ => ⟨S1024x256x256, .i32⟩
  | .hbm, ⟨32, _⟩ => ⟨S1024x256x256, .i32⟩
  | .hbm, ⟨33, _⟩ => ⟨S1024x256x256, .f32⟩
  | .hbm, ⟨34, _⟩ => ⟨S1024x256x256, .f32⟩
  | .hbm, ⟨35, _⟩ => ⟨S256, .i32⟩
  | .hbm, ⟨36, _⟩ => ⟨S1x256x1, .i32⟩
  | .hbm, ⟨37, _⟩ => ⟨S256, .i32⟩
  | .hbm, ⟨38, _⟩ => ⟨S1x1x256, .i32⟩
  | .hbm, ⟨39, _⟩ => ⟨S_, .i32⟩
  | .hbm, ⟨40, _⟩ => ⟨S1x256x1, .i32⟩
  | .hbm, ⟨41, _⟩ => ⟨S1x256x1, .i1⟩
  | .hbm, ⟨42, _⟩ => ⟨S_, .i32⟩
  | .hbm, ⟨43, _⟩ => ⟨S1x256x1, .i32⟩
  | .hbm, ⟨44, _⟩ => ⟨S1x256x1, .i32⟩
  | .hbm, ⟨45, _⟩ => ⟨S1x256x1, .i32⟩
  | .hbm, ⟨46, _⟩ => ⟨S_, .i32⟩
  | .hbm, ⟨47, _⟩ => ⟨S1x1x256, .i32⟩
  | .hbm, ⟨48, _⟩ => ⟨S1x1x256, .i1⟩
  | .hbm, ⟨49, _⟩ => ⟨S_, .i32⟩
  | .hbm, ⟨50, _⟩ => ⟨S1x1x256, .i32⟩
  | .hbm, ⟨51, _⟩ => ⟨S1x1x256, .i32⟩
  | .hbm, ⟨52, _⟩ => ⟨S1x1x256, .i32⟩
  | .hbm, ⟨53, _⟩ => ⟨S_, .i32⟩
  | .hbm, ⟨54, _⟩ => ⟨S1024x256x256, .i32⟩
  | .hbm, ⟨55, _⟩ => ⟨S1024x256x256, .i1⟩
  | .hbm, ⟨56, _⟩ => ⟨S_, .i32⟩
  | .hbm, ⟨57, _⟩ => ⟨S1024x256x256, .i32⟩
  | .hbm, ⟨58, _⟩ => ⟨S1024x256x256, .i32⟩
  | .hbm, ⟨59, _⟩ => ⟨S1024x256x256, .i32⟩
  | .hbm, ⟨60, _⟩ => ⟨S1024x256x256, .i32⟩
  | .hbm, ⟨61, _⟩ => ⟨S1024x256x256, .i32⟩
  | .hbm, ⟨62, _⟩ => ⟨S1024x256x256x1, .i32⟩
  | .hbm, ⟨63, _⟩ => ⟨S1024x256x256x1, .i32⟩
  | .hbm, ⟨64, _⟩ => ⟨S1024x256x256x1, .i32⟩
  | .hbm, ⟨65, _⟩ => ⟨S1024x256x256x3, .i32⟩
  | .hbm, ⟨66, _⟩ => ⟨S1024x256x256, .f32⟩
  | .hbm, ⟨67, _⟩ => ⟨S_, .i32⟩
  | .hbm, ⟨68, _⟩ => ⟨S1024x256x256, .i32⟩
  | .hbm, ⟨69, _⟩ => ⟨S1024x256x256, .i32⟩
  | .hbm, ⟨70, _⟩ => ⟨S_, .i32⟩
  | .hbm, ⟨71, _⟩ => ⟨S1x256x1, .i32⟩
  | .hbm, ⟨72, _⟩ => ⟨S1x256x1, .i1⟩
  | .hbm, ⟨73, _⟩ => ⟨S_, .i32⟩
  | .hbm, ⟨74, _⟩ => ⟨S1x256x1, .i32⟩
  | .hbm, ⟨75, _⟩ => ⟨S1x256x1, .i32⟩
  | .hbm, ⟨76, _⟩ => ⟨S1x256x1, .i32⟩
  | .hbm, ⟨77, _⟩ => ⟨S_, .i32⟩
  | .hbm, ⟨78, _⟩ => ⟨S1x1x256, .i32⟩
  | .hbm, ⟨79, _⟩ => ⟨S1x1x256, .i1⟩
  | .hbm, ⟨80, _⟩ => ⟨S_, .i32⟩
  | .hbm, ⟨81, _⟩ => ⟨S1x1x256, .i32⟩
  | .hbm, ⟨82, _⟩ => ⟨S1x1x256, .i32⟩
  | .hbm, ⟨83, _⟩ => ⟨S1x1x256, .i32⟩
  | .hbm, ⟨84, _⟩ => ⟨S_, .i32⟩
  | .hbm, ⟨85, _⟩ => ⟨S1024x256x256, .i32⟩
  | .hbm, ⟨86, _⟩ => ⟨S1024x256x256, .i1⟩
  | .hbm, ⟨87, _⟩ => ⟨S_, .i32⟩
  | .hbm, ⟨88, _⟩ => ⟨S1024x256x256, .i32⟩
  | .hbm, ⟨89, _⟩ => ⟨S1024x256x256, .i32⟩
  | .hbm, ⟨90, _⟩ => ⟨S1024x256x256, .i32⟩
  | .hbm, ⟨91, _⟩ => ⟨S1024x256x256, .i32⟩
  | .hbm, ⟨92, _⟩ => ⟨S1024x256x256, .i32⟩
  | .hbm, ⟨93, _⟩ => ⟨S1024x256x256x1, .i32⟩
  | .hbm, ⟨94, _⟩ => ⟨S1024x256x256x1, .i32⟩
  | .hbm, ⟨95, _⟩ => ⟨S1024x256x256x1, .i32⟩
  | .hbm, ⟨96, _⟩ => ⟨S1024x256x256x3, .i32⟩
  | .hbm, ⟨97, _⟩ => ⟨S1024x256x256, .f32⟩
  | .hbm, ⟨98, _⟩ => ⟨S1024x256x256, .f32⟩
  | .hbm, ⟨99, _⟩ => ⟨S1024x256x256, .f32⟩
  | .hbm, ⟨100, _⟩ => ⟨S1024x256x256, .f32⟩
  | .hbm, ⟨101, _⟩ => ⟨S_, .f32⟩
  | .hbm, ⟨102, _⟩ => ⟨S1024x256, .f32⟩
  | .hbm, ⟨103, _⟩ => ⟨S1x256, .f32⟩
  | .hbm, ⟨104, _⟩ => ⟨S1024x256, .f32⟩
  | .hbm, ⟨105, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_15 : Ref sig .tc := ⟨.hbm, 84, rfl⟩
abbrev main_v53 : Ref sig .tc := ⟨.hbm, 85, rfl⟩
abbrev main_v54 : Ref sig .tc := ⟨.hbm, 86, rfl⟩
abbrev main_c_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S256x256_S1x256x256_1_2 : S256x256.BroadcastsInDim S1x256x256 (![1, 2] : Fin 2 → Fin S1x256x256.rank)
  bcast_S1024x1x256_S1024x256x256_0_1_2 : S1024x1x256.BroadcastsInDim S1024x256x256 (![0, 1, 2] : Fin 3 → Fin S1024x256x256.rank)
  bcast_S1x256x256_S1024x256x256_0_1_2 : S1x256x256.BroadcastsInDim S1024x256x256 (![0, 1, 2] : Fin 3 → Fin S1024x256x256.rank)
  bcast_S_S1024x256x256 : S_.BroadcastsInDim S1024x256x256 (![] : Fin 0 → Fin S1024x256x256.rank)
  bcast_S256_S1x256x1_1 : S256.BroadcastsInDim S1x256x1 (![1] : Fin 1 → Fin S1x256x1.rank)
  bcast_S256_S1x1x256_2 : S256.BroadcastsInDim S1x1x256 (![2] : Fin 1 → Fin S1x1x256.rank)
  bcast_S_S1x256x1 : S_.BroadcastsInDim S1x256x1 (![] : Fin 0 → Fin S1x256x1.rank)
  bcast_S_S1x1x256 : S_.BroadcastsInDim S1x1x256 (![] : Fin 0 → Fin S1x1x256.rank)
  bcast_S1x256x1_S1024x256x256_0_1_2 : S1x256x1.BroadcastsInDim S1024x256x256 (![0, 1, 2] : Fin 3 → Fin S1024x256x256.rank)
  bcast_S1x1x256_S1024x256x256_0_1_2 : S1x1x256.BroadcastsInDim S1024x256x256 (![0, 1, 2] : Fin 3 → Fin S1024x256x256.rank)
  bcast_S1024x256x256_S1024x256x256x1_0_1_2 : S1024x256x256.BroadcastsInDim S1024x256x256x1 (![0, 1, 2] : Fin 3 → Fin S1024x256x256x1.rank)
  concatenates_S1024x256x256x1_S1024x256x256x1_S1024x256x256x1_S1024x256x256x3_d3 : Shape.Concatenates [S1024x256x256x1, S1024x256x256x1, S1024x256x256x1] S1024x256x256x3 3
  reducesTo_S1024x256x256_S1024x256_d2 : S1024x256x256.ReducesTo [2] S1024x256
  h_S_ : 0 < S_.numel
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  gather_S256x256x16_S1024x256x256x3_S1024x256x256_n_012_n_n_012_3_111_wf : GatherDims.WF S256x256x16 S1024x256x256x3 S1024x256x256 [] [0, 1, 2] [] [0, 1, 2] [] 3 ![1, 1, 1]

variable [Facts₀]

def gather_S256x256x16_S1024x256x256x3_S1024x256x256_n_012_n_n_012_3_111 : GatherDims S256x256x16 S1024x256x256x3 S1024x256x256 where
  offsetDims := []
  collapsedSliceDims := [0, 1, 2]
  operandBatchingDims := []
  startIndicesBatchingDims := []
  startIndexMap := [0, 1, 2]
  indexVectorDim := 3
  sliceSizes := ![1, 1, 1]
  wf := gather_S256x256x16_S1024x256x256x3_S1024x256x256_n_012_n_n_012_3_111_wf

class Facts : Prop extends Facts₀ where

variable [Facts]
-- ==== Proof.Spec.lean ====
/-
  The mathematics both programs compute, named once.

  One edge (batch row b, output o, input k) carries the product a·w of an entry of x and an entry of W, clamped to
  [-1, 1] and mapped affinely onto the knot axis [0, 15]: the grid coordinate u = (clamp(a·w) + 1) · 7.5.
  Over that axis sixteen knot values s 0 … s 15 are interpolated piecewise linearly.

  The kernel writes the interpolant in the HAT BASIS: the weight of knot g at u is max(0, 1 − |u − g|) (clipped above
  by 1, which never binds), and for each knot it sums weight · value over the 256 inputs, adding the sixteen row sums
  one after the other and the bias last.
  The reference finds the LEFT KNOT i = min(14, ⌊u⌋), the offset u − i, and sums s i + (u − i)·(s (i+1) − s i) over the
  256 inputs, adding the bias last.

  Both are functions of: U k, the grid coordinate of input k; s k g, knot g's value on input k; β, the bias.
-/
import Idealize.ShloMosaic.PureOps.Ideal
import Idealize.ShloMosaic.Lib.ValueIdx

noncomputable section

open scoped BigOperators

namespace Cert.Kan

open Idealize.ShloMosaic Idealize.ShloMosaic.ValueIdx

/-! ## On the reals -/

/-- The left knot of a grid coordinate: ⌊u⌋, but 14 at the right end u = 15, so that knot i + 1 exists. -/
def knot (u : ℝ) : ℕ := min 14 ⌊u⌋₊

theorem knot_le (u : ℝ) : knot u ≤ 14 := Nat.min_le_left _ _

/-- Knot g's hat weight at u: 1 at g, falling linearly to 0 at g ± 1. -/
def hat (u c : ℝ) : ℝ := min 1 (max 0 (1 - max (u - c) (-(u - c))))

/-- Knot g's row sum: its hat weight times its value, over the 256 inputs. -/
def row (U : Fin 256 → ℝ) (s : Fin 256 → Fin 16 → ℝ) (g : Fin 16) : ℝ :=
  ∑ k : Fin 256, hat (U k) (g.val : ℝ) * s k g

/-- The kernel's value at one output entry: the sixteen row sums added in knot order from zero, then the bias. -/
def kernelPoint (U : Fin 256 → ℝ) (s : Fin 256 → Fin 16 → ℝ) (β : ℝ) : ℝ :=
  0 + row U s 0 + row U s 1 + row U s 2 + row U s 3 + row U s 4 + row U s 5 + row U s 6 + row U s 7
    + row U s 8 + row U s 9 + row U s 10 + row U s 11 + row U s 12 + row U s 13 + row U s 14 + row U s 15 + β

/-- The reference's value at one output entry: the interpolant between the left knot and its right neighbour, summed
    over the 256 inputs from zero, then the bias. -/
def refPoint (U : Fin 256 → ℝ) (s : Fin 256 → Fin 16 → ℝ) (β : ℝ) : ℝ :=
  (0 + ∑ k : Fin 256, (s k ⟨knot (U k), by have := knot_le (U k); omega⟩
      + (U k - (knot (U k) : ℝ)) * (s k ⟨knot (U k) + 1, by have := knot_le (U k); omega⟩
          - s k ⟨knot (U k), by have := knot_le (U k); omega⟩))) + β

/-! ## On the extended reals (the programs' own arithmetic at the ideal instance) -/

/-- The grid coordinate of one edge: the product clamped to [-1, 1], moved to [0, 2], scaled by 7.5. -/
def coordE (a w : EReal) : EReal :=
  (min ((1 : ℝ) : EReal) (max ((-1 : ℝ) : EReal) (a * w)) + ((1 : ℝ) : EReal)) * ((7.5 : ℝ) : EReal)

/-- Knot c's hat weight at u. -/
def hatE (u c : EReal) : EReal :=
  min ((1 : ℝ) : EReal) (max ((0 : ℝ) : EReal) (((1 : ℝ) : EReal) - max (u - c) (-(u - c))))

/-- Knot g's row sum. -/
def rowE (U : Fin 256 → EReal) (s : Fin 256 → Fin 16 → EReal) (g : Fin 16) : EReal :=
  ∑ k : Fin 256, hatE (U k) (((g.val : ℕ) : ℝ) : EReal) * s k g

/-- The kernel's value at one output entry. -/
def kernelPointE (U : Fin 256 → EReal) (s : Fin 256 → Fin 16 → EReal) (β : EReal) : EReal :=
  ((0 : ℝ) : EReal) + rowE U s 0 + rowE U s 1 + rowE U s 2 + rowE U s 3 + rowE U s 4 + rowE U s 5 + rowE U s 6 + rowE U s 7
    + rowE U s 8 + rowE U s 9 + rowE U s 10 + rowE U s 11 + rowE U s 12 + rowE U s 13 + rowE U s 14 + rowE U s 15 + β

/-- The left knot of an extended-real grid coordinate (of its real part). -/
def knotE (u : EReal) : ℕ := knot u.toReal

theorem knotE_le (u : EReal) : knotE u ≤ 14 := knot_le _

/-- The reference's value at one output entry. -/
def refPointE (U : Fin 256 → EReal) (s : Fin 256 → Fin 16 → EReal) (β : EReal) : EReal :=
  (((0 : ℝ) : EReal) + ∑ k : Fin 256, (s k ⟨knotE (U k), by have := knotE_le (U k); omega⟩
      + (U k - (((knotE (U k) : ℕ) : ℝ) : EReal)) * (s k ⟨knotE (U k) + 1, by have := knotE_le (U k); omega⟩
          - s k ⟨knotE (U k), by have := knotE_le (U k); omega⟩))) + β

/-! ## The result array as one function of the four argument arrays -/

/-- Entry (b, o) of the result: the reference's point value of row b of x against row o of W, over the knot
    values of output o, with bias o. -/
def G (x : (⟨2, ![1024, 256]⟩ : Shape).Idx → EReal) (W : (⟨2, ![256, 256]⟩ : Shape).Idx → EReal)
    (sv : (⟨3, ![256, 256, 16]⟩ : Shape).Idx → EReal) (bias : (⟨1, ![256]⟩ : Shape).Idx → EReal) :
    (⟨2, ![1024, 256]⟩ : Shape).Idx → EReal :=
  fun j => refPointE (fun k => coordE (x (ix2 (j 0) k)) (W (ix2 (j 1) k))) (fun k g => sv (ix3 (j 1) k g)) (bias (ix1 (j 1)))

/-- The same entry in the kernel's arrangement. -/
def GK (x : (⟨2, ![1024, 256]⟩ : Shape).Idx → EReal) (W : (⟨2, ![256, 256]⟩ : Shape).Idx → EReal)
    (sv : (⟨3, ![256, 256, 16]⟩ : Shape).Idx → EReal) (bias : (⟨1, ![256]⟩ : Shape).Idx → EReal) :
    (⟨2, ![1024, 256]⟩ : Shape).Idx → EReal :=
  fun j => kernelPointE (fun k => coordE (x (ix2 (j 0) k)) (W (ix2 (j 1) k))) (fun k g => sv (ix3 (j 1) k g)) (bias (ix1 (j 1)))

/-- Every entry of an array is a real number. -/
def AllReal {S : Shape} (x : S.Idx → EReal) : Prop := ∀ i, ∃ r : ℝ, x i = (r : EReal)

end Cert.Kan

end
-- ==== Proof.Lerp.lean ====
/-
  The hat basis reproduces piecewise-linear interpolation.

  For a grid coordinate u in [0, 15] with left knot i = min(14, ⌊u⌋), only knots i and i + 1 have a non-zero hat
  weight at u: 1 − (u − i) and u − i. So Σ_g hat(u, g) · s g = (1 − (u − i)) · s i + (u − i) · s (i+1)
  = s i + (u − i) · (s (i+1) − s i). Summing over the 256 inputs and exchanging the two finite sums turns the
  kernel's sixteen row sums into the reference's single sum of interpolants.
-/
import proofs.«137080_j14714557956115_1_alg».proof.Proof.Spec

noncomputable section

open scoped BigOperators

namespace Cert.Kan

/-- The left knot lies at or below a non-negative coordinate. -/
private theorem knot_cast_le (u : ℝ) (h0 : 0 ≤ u) : (knot u : ℝ) ≤ u := by
  have h1 : knot u ≤ ⌊u⌋₊ := Nat.min_le_right _ _
  have h2 : ((⌊u⌋₊ : ℕ) : ℝ) ≤ u := Nat.floor_le h0
  have h3 : (knot u : ℝ) ≤ ((⌊u⌋₊ : ℕ) : ℝ) := by exact_mod_cast h1
  exact le_trans h3 h2

/-- A coordinate of at most 15 lies at or below the right neighbour of its left knot. -/
private theorem le_knot_cast_add_one (u : ℝ) (h15 : u ≤ 15) : u ≤ (knot u : ℝ) + 1 := by
  unfold knot
  rcases le_total 14 ⌊u⌋₊ with h | h
  · rw [min_eq_left h]; push_cast; linarith
  · rw [min_eq_right h]; exact (Nat.lt_floor_add_one u).le

/-- On [c, c + 1] the hat of knot c falls linearly from 1. -/
private theorem hat_of_left (u c : ℝ) (h1 : c ≤ u) (h2 : u ≤ c + 1) : hat u c = 1 - (u - c) := by
  unfold hat
  rw [max_eq_left (by linarith : -(u - c) ≤ u - c), max_eq_right (by linarith : (0 : ℝ) ≤ 1 - (u - c)),
    min_eq_right (by linarith : 1 - (u - c) ≤ 1)]

/-- On [c − 1, c] the hat of knot c rises linearly to 1. -/
private theorem hat_of_right (u c : ℝ) (h1 : c - 1 ≤ u) (h2 : u ≤ c) : hat u c = 1 + (u - c) := by
  unfold hat
  rw [max_eq_right (by linarith : u - c ≤ -(u - c)), max_eq_right (by linarith : (0 : ℝ) ≤ 1 - -(u - c)),
    min_eq_right (by linarith : 1 - -(u - c) ≤ 1)]
  ring

/-- A knot at least one to the left of u has weight zero. -/
private theorem hat_of_far_left (u c : ℝ) (h : c + 1 ≤ u) : hat u c = 0 := by
  unfold hat
  rw [max_eq_left (by linarith : -(u - c) ≤ u - c), max_eq_left (by linarith : 1 - (u - c) ≤ 0),
    min_eq_right (by norm_num : (0 : ℝ) ≤ 1)]

/-- A knot at least one to the right of u has weight zero. -/
private theorem hat_of_far_right (u c : ℝ) (h : u + 1 ≤ c) : hat u c = 0 := by
  unfold hat
  rw [max_eq_right (by linarith : u - c ≤ -(u - c)), max_eq_left (by linarith : 1 - -(u - c) ≤ 0),
    min_eq_right (by norm_num : (0 : ℝ) ≤ 1)]

/-- A sum over the sixteen knots, written out in knot order. -/
private theorem sum_univ_sixteen (f : Fin 16 → ℝ) :
    ∑ g : Fin 16, f g = f 0 + f 1 + f 2 + f 3 + f 4 + f 5 + f 6 + f 7 + f 8 + f 9 + f 10 + f 11 + f 12 + f 13
      + f 14 + f 15 := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  rfl

/-- At a coordinate in [0, 15] the sixteen hat weights pick out the left knot and its right neighbour. -/
theorem hat_sum_eq_lerp (u : ℝ) (h0 : 0 ≤ u) (h15 : u ≤ 15) (v : Fin 16 → ℝ) :
    ∑ g : Fin 16, hat u (g.val : ℝ) * v g
      = v ⟨knot u, by have := knot_le u; omega⟩
        + (u - (knot u : ℝ)) * (v ⟨knot u + 1, by have := knot_le u; omega⟩ - v ⟨knot u, by have := knot_le u; omega⟩) := by
  have hk := knot_le u
  have hl := knot_cast_le u h0
  have hr := le_knot_cast_add_one u h15
  have hne : (⟨knot u, by omega⟩ : Fin 16) ≠ ⟨knot u + 1, by omega⟩ := by
    intro h
    have := congrArg Fin.val h
    simp at this
  rw [Finset.sum_eq_add (⟨knot u, by omega⟩ : Fin 16) ⟨knot u + 1, by omega⟩ hne]
  · -- the two surviving terms: weights 1 − (u − i) and u − i
    have e1 : hat u (((⟨knot u, by omega⟩ : Fin 16).val : ℕ) : ℝ) = 1 - (u - (knot u : ℝ)) :=
      hat_of_left u (knot u : ℝ) hl hr
    have e2 : hat u (((⟨knot u + 1, by omega⟩ : Fin 16).val : ℕ) : ℝ) = u - (knot u : ℝ) := by
      have hc : (((⟨knot u + 1, by omega⟩ : Fin 16).val : ℕ) : ℝ) = (knot u : ℝ) + 1 := by push_cast; ring
      rw [hc, hat_of_right u ((knot u : ℝ) + 1) (by linarith) hr]
      ring
    rw [e1, e2]
    ring
  · -- every other knot is at distance at least one from u
    intro g _ hg
    have hg1 : g.val ≠ knot u := fun h => hg.1 (Fin.ext h)
    have hg2 : g.val ≠ knot u + 1 := fun h => hg.2 (Fin.ext h)
    rcases Nat.lt_or_ge g.val (knot u) with hlt | hge
    · have hc : ((g.val : ℕ) : ℝ) + 1 ≤ (knot u : ℝ) := by exact_mod_cast hlt
      rw [hat_of_far_left u (g.val : ℝ) (by linarith), zero_mul]
    · have hgt : knot u + 2 ≤ g.val := by omega
      have hc : (knot u : ℝ) + 2 ≤ ((g.val : ℕ) : ℝ) := by exact_mod_cast hgt
      rw [hat_of_far_right u (g.val : ℝ) (by linarith), zero_mul]
  · intro h; exact absurd (Finset.mem_univ _) h
  · intro h; exact absurd (Finset.mem_univ _) h

/-- The kernel's arrangement and the reference's are one real number. -/
theorem kernelPoint_eq_refPoint (U : Fin 256 → ℝ) (hU : ∀ k, 0 ≤ U k ∧ U k ≤ 15) (s : Fin 256 → Fin 16 → ℝ) (β : ℝ) :
    kernelPoint U s β = refPoint U s β := by
  -- the sixteen explicit row sums are the sum over the knots
  have h1 : kernelPoint U s β = (∑ g : Fin 16, row U s g) + β := by
    unfold kernelPoint
    rw [sum_univ_sixteen (row U s), zero_add]
  rw [h1]
  unfold refPoint row
  -- exchange the sum over knots with the sum over inputs, then interpolate input by input
  rw [Finset.sum_comm, zero_add]
  congr 1
  refine Finset.sum_congr rfl (fun k _ => ?_)
  exact hat_sum_eq_lerp (U k) (hU k).1 (hU k).2 (s k)

end Cert.Kan

end
-- ==== Proof.Bridge.lean ====
/-
  From the extended reals to the reals and back.

  The grid coordinate of an edge is a real number in [0, 15] whatever the two factors are: the clamp to [-1, 1]
  absorbs an infinite product. When the knot values and the bias are real as well, both point values are the
  coercions of their real counterparts, and those agree (the hat-basis law).
-/
import proofs.«137080_j14714557956115_1_alg».proof.Proof.Lerp

noncomputable section

open scoped BigOperators

namespace Cert.Kan

open Idealize.ShloMosaic Idealize.ShloMosaic.ValueIdx

/-! ## The coercion ℝ → EReal commutes with max, min and finite sums -/

/-- The coercion is monotone, so it commutes with the maximum of two reals. -/
private theorem coe_max' (a b : ℝ) : ((max a b : ℝ) : EReal) = max (a : EReal) (b : EReal) :=
  EReal.coe_strictMono.monotone.map_max

/-- The coercion is monotone, so it commutes with the minimum of two reals. -/
private theorem coe_min' (a b : ℝ) : ((min a b : ℝ) : EReal) = min (a : EReal) (b : EReal) :=
  EReal.coe_strictMono.monotone.map_min

/-- The coercion is additive, so it commutes with a finite sum (induction on the index set). -/
private theorem coe_sum' {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## The clamp makes every grid coordinate real -/

/-- Clamping any extended real to [-1, 1] gives a real number of that interval: ⊥ goes to -1, ⊤ to 1, and a real
    number to its real clamp. -/
private theorem clamp_real (z : EReal) :
    ∃ t : ℝ, min ((1 : ℝ) : EReal) (max ((-1 : ℝ) : EReal) z) = (t : EReal) ∧ -1 ≤ t ∧ t ≤ 1 := by
  induction z using EReal.rec with
  | bot =>
    refine ⟨-1, ?_, le_refl _, by norm_num⟩
    rw [max_eq_left bot_le, min_eq_right]
    exact EReal.coe_le_coe_iff.2 (by norm_num)
  | coe r =>
    refine ⟨min 1 (max (-1) r), ?_, ?_, ?_⟩
    · rw [coe_min', coe_max']
    · exact le_min (by norm_num) (le_max_left _ _)
    · exact min_le_left _ _
  | top =>
    refine ⟨1, ?_, by norm_num, le_refl _⟩
    rw [max_eq_right le_top, min_eq_left le_top]

/-- The grid coordinate is always a real number between 0 and 15. -/
theorem coordE_real (a w : EReal) : ∃ r : ℝ, coordE a w = (r : EReal) ∧ 0 ≤ r ∧ r ≤ 15 := by
  obtain ⟨t, ht, h1, h2⟩ := clamp_real (a * w)
  refine ⟨(t + 1) * 7.5, ?_, ?_, ?_⟩
  · unfold coordE
    rw [ht, EReal.coe_mul, EReal.coe_add]
  · exact mul_nonneg (by linarith) (by norm_num)
  · have h3 : t + 1 ≤ 2 := by linarith
    calc (t + 1) * 7.5 ≤ 2 * 7.5 := mul_le_mul_of_nonneg_right h3 (by norm_num)
      _ = 15 := by norm_num

/-! ## The kernel's point value over real data -/

/-- A hat weight at real arguments is the coercion of the real hat weight. -/
private theorem hatE_coe (u c : ℝ) : hatE (u : EReal) (c : EReal) = ((hat u c : ℝ) : EReal) := by
  unfold hatE hat
  rw [coe_min', coe_max', EReal.coe_sub, coe_max', EReal.coe_neg, EReal.coe_sub]

/-- A row sum over real data is the coercion of the real row sum. -/
private theorem rowE_coe (U : Fin 256 → ℝ) (s : Fin 256 → Fin 16 → ℝ) (g : Fin 16) :
    rowE (fun k => (U k : EReal)) (fun k g => (s k g : EReal)) g = ((row U s g : ℝ) : EReal) := by
  unfold rowE row
  rw [coe_sum']
  refine Finset.sum_congr rfl (fun k _ => ?_)
  rw [EReal.coe_mul, ← hatE_coe]

/-- Over real data the kernel's point value is the coercion of the real one. -/
theorem kernelPointE_coe (U : Fin 256 → ℝ) (s : Fin 256 → Fin 16 → ℝ) (β : ℝ) :
    kernelPointE (fun k => (U k : EReal)) (fun k g => (s k g : EReal)) (β : EReal) = ((kernelPoint U s β : ℝ) : EReal) := by
  unfold kernelPointE kernelPoint
  simp only [rowE_coe, EReal.coe_add]

/-! ## The reference's point value over real data -/

/-- One interpolant over real data is the coercion of the real interpolant; the left knot of a coerced real is the
    left knot of that real, because the real part of a coerced real is the real itself. -/
private theorem lerpE_coe (u : ℝ) (v : Fin 16 → ℝ) :
    ((v ⟨knotE (u : EReal), by have := knotE_le (u : EReal); omega⟩ : ℝ) : EReal)
        + ((u : EReal) - (((knotE (u : EReal) : ℕ) : ℝ) : EReal))
          * (((v ⟨knotE (u : EReal) + 1, by have := knotE_le (u : EReal); omega⟩ : ℝ) : EReal)
              - ((v ⟨knotE (u : EReal), by have := knotE_le (u : EReal); omega⟩ : ℝ) : EReal))
      = ((v ⟨knot u, by have := knot_le u; omega⟩
          + (u - (knot u : ℝ)) * (v ⟨knot u + 1, by have := knot_le u; omega⟩ - v ⟨knot u, by have := knot_le u; omega⟩) : ℝ) : EReal) := by
  rw [EReal.coe_add, EReal.coe_mul, EReal.coe_sub, EReal.coe_sub]
  rfl

/-- Over real data the reference's point value is the coercion of the real one. -/
theorem refPointE_coe (U : Fin 256 → ℝ) (s : Fin 256 → Fin 16 → ℝ) (β : ℝ) :
    refPointE (fun k => (U k : EReal)) (fun k g => (s k g : EReal)) (β : EReal) = ((refPoint U s β : ℝ) : EReal) := by
  unfold refPointE refPoint
  rw [EReal.coe_add, EReal.coe_add, coe_sum']
  refine congrArg (fun z : EReal => z + (β : EReal)) (congrArg (fun z : EReal => ((0 : ℝ) : EReal) + z) ?_)
  exact Finset.sum_congr rfl (fun k _ => lerpE_coe (U k) (s k))

/-! ## The two arrangements agree -/

/-- When the coordinates are reals of [0, 15] and the knot values and the bias are real, the kernel's point value
    and the reference's are the coercion of one real number. -/
private theorem point_eq (UE : Fin 256 → EReal) (sE : Fin 256 → Fin 16 → EReal) (bE : EReal)
    (hU : ∀ k, ∃ r : ℝ, UE k = (r : EReal) ∧ 0 ≤ r ∧ r ≤ 15) (hs : ∀ k g, ∃ r : ℝ, sE k g = (r : EReal))
    (hb : ∃ r : ℝ, bE = (r : EReal)) : kernelPointE UE sE bE = refPointE UE sE bE := by
  choose Ur hUr using hU
  choose sr hsr using hs
  obtain ⟨br, hbr⟩ := hb
  have eU : UE = fun k => (Ur k : EReal) := funext fun k => (hUr k).1
  have eS : sE = fun k g => (sr k g : EReal) := funext fun k => funext fun g => hsr k g
  rw [eU, eS, hbr, kernelPointE_coe, refPointE_coe,
    kernelPoint_eq_refPoint Ur (fun k => ⟨(hUr k).2.1, (hUr k).2.2⟩)]

/-- With real knot values and a real bias the two arrangements of the result array agree entry by entry. -/
theorem GK_eq_G (x : (⟨2, ![1024, 256]⟩ : Shape).Idx → EReal) (W : (⟨2, ![256, 256]⟩ : Shape).Idx → EReal)
    (sv : (⟨3, ![256, 256, 16]⟩ : Shape).Idx → EReal) (bias : (⟨1, ![256]⟩ : Shape).Idx → EReal)
    (hsv : AllReal sv) (hb : AllReal bias) : GK x W sv bias = G x W sv bias := by
  funext j
  show kernelPointE _ _ _ = refPointE _ _ _
  exact point_eq _ _ _ (fun k => coordE_real _ _) (fun k g => hsv _) (hb _)

end Cert.Kan

end
-- ==== Proof.Finite.lean ====
/-
  From the precondition to real entries.

  The precondition says: every entry of each of the four argument arrays is strictly below +∞ in absolute value.
  An extended real whose absolute value is below +∞ is neither +∞ nor −∞, so it is a real number. The interpolation
  law is used over real knot values and a real bias, so those two arrays are what is read off here.
-/
import proofs.«137080_j14714557956115_1_alg».proof.Proof.Gen.Pre_finite_inputs
import proofs.«137080_j14714557956115_1_alg».proof.Proof.Spec
import Idealize.ShloMosaic.Lib.ReduceAll
import Idealize.ShloMosaic.Lib.ValueIdx

noncomputable section

namespace Cert.Kan

open Idealize.ShloMosaic Idealize.ShloMosaic.ValueIdx Cert.Pre_finite_inputs

/-- The result of a reduction over all axes has one index only. -/
private instance : Subsingleton S_.Idx := ⟨fun a b => funext fun d => d.elim0⟩

/-- An extended real whose absolute value is below +∞ is neither infinity, so it is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- The precondition's test on one entry, read back: "|a| < +∞" holding says that a is a real number.
    The pattern 0x7F800000 (sign 0, exponent all ones, fraction 0) denotes +∞. -/
private theorem real_of_test (a : Ideal .f32)
    (h : FloatOps.cmpf .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  have h' : BitVec.ofBool (decide (max (a : EReal) (-(a : EReal)) < Ideal.ofBits .f32 0x7F800000#32)) = 1#1 := h
  rw [htop] at h'
  refine real_of_abs_lt_top a ?_
  by_contra hn
  simp [hn] at h'

/-- Under the precondition the knot values and the bias are real numbers, entry by entry. -/
theorem allReal_of_pre (x0 : FVec Ideal S1024x256 .f32) (x1 : FVec Ideal S256x256 .f32)
    (x2 : FVec Ideal S256x256x16 .f32) (x3 : FVec Ideal S256 .f32)
    (h : Cert.Pre_finite_inputs.fn (F := Ideal) x0 x1 x2 x3 = fun _ => 1#1) :
    AllReal (S := S256x256x16) x2 ∧ AllReal (S := S256) x3 := by
  -- the one bit the predicate returns, with its chain of operations in view
  have h0 := congrFun h ValueIdx.ix0
  dsimp only [fn, fn_part1] at h0
  -- that bit is the conjunction ((b₀ ∧ b₁) ∧ b₂) ∧ b₃ of the four arrays' bits: b₂ and b₃ are what is wanted
  obtain ⟨h13, h17⟩ := IntOp.andi_eq_one.1 h0
  obtain ⟨_, h12⟩ := IntOp.andi_eq_one.1 h13
  -- each array's bit is the conjunction of its entries' tests, so every entry passes its test
  refine ⟨fun i => ?_, fun i => ?_⟩
  · exact real_of_test (x2 i) (Host.reduce_andi_all _ _ _ _ _ h12 i)
  · exact real_of_test (x3 i) (Host.reduce_andi_all _ _ _ _ _ h17 i)

end Cert.Kan

end
-- ==== Proof.Consts.lean ====
/-
  The float constants the two programs spell, as the real numbers their bit patterns denote at the ideal instance:
  the clamp bounds −1 and 1, the scale 7.5, zero, and the sixteen knot positions 0 … 15.
-/
import Idealize.ShloMosaic.PureOps.Ideal

noncomputable section

namespace Cert.Kan.Consts

open Idealize.ShloMosaic

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_7p5 : Ideal.ofBits .f32 0x40F00000#32 = ((7.5 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_seven : Ideal.ofBits .f32 0x40E00000#32 = ((7 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_nine : Ideal.ofBits .f32 0x41100000#32 = ((9 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_eleven : Ideal.ofBits .f32 0x41300000#32 = ((11 : ℝ) : EReal) := by
  simp [Ideal.ofBits, Ideal.ieee, -EReal.coe_mul]; norm_num
theorem ofBits_twelve : Ideal.ofBits .f32 0x41400000#32 = ((12 : ℝ) : EReal) := by
  simp [Ideal.ofBits, Ideal.ieee, -EReal.coe_mul]; norm_num
theorem ofBits_thirteen : Ideal.ofBits .f32 0x41500000#32 = ((13 : ℝ) : EReal) := by
  simp [Ideal.ofBits, Ideal.ieee, -EReal.coe_mul]; norm_num
theorem ofBits_fourteen : Ideal.ofBits .f32 0x41600000#32 = ((14 : ℝ) : EReal) := by
  simp [Ideal.ofBits, Ideal.ieee, -EReal.coe_mul]; norm_num
theorem ofBits_fifteen : Ideal.ofBits .f32 0x41700000#32 = ((15 : ℝ) : EReal) := by
  simp [Ideal.ofBits, Ideal.ieee, -EReal.coe_mul]; norm_num

end Cert.Kan.Consts

end
-- ==== Proof.KernelAt.lean ====
/-
  The kernel's block value at one entry.

  At block-local position (p, q) the body multiplies row p of the x block with row q of the W block entry by entry,
  clamps and rescales each product to its grid coordinate, and for each of the sixteen knots forms the hat weight,
  multiplies by that knot's slice of the spline block (row q), sums over the 256 inputs, and adds the sixteen sums
  in knot order onto zero; the bias block's entry q comes last. That is the kernel-shaped point value.
-/
import proofs.«137080_j14714557956115_1_alg».proof.Proof.Gen.KernelIdeal.Frame
import proofs.«137080_j14714557956115_1_alg».proof.Proof.Spec
import proofs.«137080_j14714557956115_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Kan

open Idealize.ShloMosaic Idealize.ShloMosaic.ValueIdx Cert.KernelIdeal Cert.KernelIdeal.Gen

section Terms
variable {F : FTy → Type} [FloatOps F]

/-- Knot c's hat weight over the block of grid coordinates: min 1 (max 0 (1 − |u − c|)), entry by entry. -/
private def hatW (u : FVec F S32x128x256 .f32) (c : BitVec 32) : FVec F S32x128x256 .f32 :=
  minimumf (broadcast S32x128x256 (Scalar.ofBits .f32 0x3F800000#32))
    (maximumf (broadcast S32x128x256 (Scalar.ofBits .f32 0x00000000#32))
      (subf (broadcast S32x128x256 (Scalar.ofBits .f32 0x3F800000#32))
        (absf (subf u (broadcast S32x128x256 (Scalar.ofBits .f32 c))))))

/-- One knot's slice of the spline block, laid out over the batch rows: entry (p, q, k) is the slice's (q, k, 0). -/
private def svB (sv : Vec F S128x256x1 .f32) : FVec F S32x128x256 .f32 :=
  broadcastTo S32x128x256
    (shapeCast S1x128x256 (shapeCast S128x256 sv shapeCasts_S128x256x1_S128x256) shapeCasts_S128x256_S1x128x256)
    broadcasts_S1x128x256_S32x128x256

/-- The sum over the 256 inputs. -/
private def laneSum (v : FVec F S32x128x256 .f32) : FVec F S32x128 .f32 :=
  multiReduction .add [2] S32x128 v 0x00000000#32 reduces_S32x128x256_S32x128 (.inl rfl) rfl

/-- One knot's row sum: hat weight times knot value, summed over the inputs. -/
private def hatRow (u : FVec F S32x128x256 .f32) (c : BitVec 32) (sv : Vec F S128x256x1 .f32) : FVec F S32x128 .f32 :=
  laneSum (mulf (hatW u c) (svB sv))

/-- The bias block's one row over the batch rows. -/
private def biasB (b : Vec F S1x128 .f32) : FVec F S32x128 .f32 :=
  broadcastTo S32x128 (shapeCast S1x128 b shapeCasts_S1x128_S1x128) broadcasts_S1x128_S32x128

/-- The offsets of a whole-block rectangle are zero on both axes. -/
private theorem hz2 : (![0, 0] : Fin 2 → Nat) = fun _ => 0 := by
  funext a; match a with | ⟨0, _⟩ => rfl | ⟨1, _⟩ => rfl

/-- The output block is the sixteen row sums added in knot order onto zero, then the bias row:
    the body's operations regrouped, nothing computed. -/
private theorem out0_4_eq (x0 : Vec F S32x256 .f32) (x1 : Vec F S128x256 .f32) (x2 : Vec F S128x256x16 .f32)
    (x3 : Vec F S1x128 .f32) :
    out0_4 x0 x1 x2 x3
      = addf (addf (addf (addf (addf (addf (addf (addf (addf (addf (addf (addf (addf (addf (addf (addf (addf (broadcast S32x128 (Scalar.ofBits (F := F) .f32 0x00000000#32))
      (hatRow (k0_pay1 (View.ld x0 r0_0) (View.ld x1 r0_1)) 0x00000000#32 (View.ld x2 r0_2)))
      (hatRow (k0_pay1 (View.ld x0 r0_0) (View.ld x1 r0_1)) 0x3F800000#32 (View.ld x2 r0_3)))
      (hatRow (k0_pay1 (View.ld x0 r0_0) (View.ld x1 r0_1)) 0x40000000#32 (View.ld x2 r0_4)))
      (hatRow (k0_pay1 (View.ld x0 r0_0) (View.ld x1 r0_1)) 0x40400000#32 (View.ld x2 r0_5)))
      (hatRow (k0_pay1 (View.ld x0 r0_0) (View.ld x1 r0_1)) 0x40800000#32 (View.ld x2 r0_6)))
      (hatRow (k0_pay1 (View.ld x0 r0_0) (View.ld x1 r0_1)) 0x40A00000#32 (View.ld x2 r0_7)))
      (hatRow (k0_pay1 (View.ld x0 r0_0) (View.ld x1 r0_1)) 0x40C00000#32 (View.ld x2 r0_8)))
      (hatRow (k0_pay1 (View.ld x0 r0_0) (View.ld x1 r0_1)) 0x40E00000#32 (View.ld x2 r0_9)))
      (hatRow (k0_pay1 (View.ld x0 r0_0) (View.ld x1 r0_1)) 0x41000000#32 (View.ld x2 r0_10)))
      (hatRow (k0_pay1 (View.ld x0 r0_0) (View.ld x1 r0_1)) 0x41100000#32 (View.ld x2 r0_11)))
      (hatRow (k0_pay1 (View.ld x0 r0_0) (View.ld x1 r0_1)) 0x41200000#32 (View.ld x2 r0_12)))
      (hatRow (k0_pay1 (View.ld x0 r0_0) (View.ld x1 r0_1)) 0x41300000#32 (View.ld x2 r0_13)))
      (hatRow (k0_pay1 (View.ld x0 r0_0) (View.ld x1 r0_1)) 0x41400000#32 (View.ld x2 r0_14)))
      (hatRow (k0_pay1 (View.ld x0 r0_0) (View.ld x1 r0_1)) 0x41500000#32 (View.ld x2 r0_15)))
      (hatRow (k0_pay1 (View.ld x0 r0_0) (View.ld x1 r0_1)) 0x41600000#32 (View.ld x2 r0_16)))
      (hatRow (k0_pay1 (View.ld x0 r0_0) (View.ld x1 r0_1)) 0x41700000#32 (View.ld x2 r0_17)))
      (biasB (View.ld x3 r0_18)) :=
  (View.canon_unit_zero hz2 _ _).trans rfl

end Terms

section AtIdeal

/-- A knot's laid-out slice at (p, q, k) is the slice's entry (q, k, 0): the row index p is the broadcast one. -/
private theorem svB_apply (sv : Vec Ideal S128x256x1 .f32) (p : Fin 32) (q : Fin 128) (k : Fin 256) :
    svB sv (ix3 p q k) = sv (ix3 q k (0 : Fin 1)) := by
  unfold svB
  refine (broadcastTo_apply _ broadcasts_S1x128x256_S32x128x256 (ix3 p q k) (ix3 (0 : Fin 1) q k) (fun a => ?_)).trans ?_
  · match a with
    | ⟨0, _⟩ => rfl
    | ⟨1, _⟩ => rfl
    | ⟨2, _⟩ => rfl
  · refine (shapeCast_ab_1ab_apply _ shapeCasts_S128x256_S1x128x256 (0 : Fin 1) q k).trans ?_
    exact shapeCast_apply sv shapeCasts_S128x256x1_S128x256 (ix2 q k) (ix3 q k (0 : Fin 1)) (by
      rw [Shape.rowMajor_val_three, Shape.rowMajor_val_two]
      show (q.val * 256 + k.val) * 1 + 0 = q.val * 256 + k.val
      omega)

/-- The hat weight at one entry, the knot position given as the real number its word denotes. -/
private theorem hatW_apply (u : FVec Ideal S32x128x256 .f32) (c : BitVec 32) (cr : ℝ)
    (hc : Ideal.ofBits .f32 c = (cr : EReal)) (i : S32x128x256.Idx) :
    hatW u c i = hatE (u i) (cr : EReal) := by
  show min (Ideal.ofBits .f32 0x3F800000#32) (max (Ideal.ofBits .f32 0x00000000#32)
      (Ideal.ofBits .f32 0x3F800000#32 - max (u i - Ideal.ofBits .f32 c) (-(u i - Ideal.ofBits .f32 c)))) = _
  rw [Consts.ofBits_one, Consts.ofBits_zero, hc]
  rfl

/-- One knot's row sum at (p, q): the sum over the 256 inputs of hat weight times knot value. -/
private theorem hatRow_apply (u : FVec Ideal S32x128x256 .f32) (c : BitVec 32) (cr : ℝ)
    (hc : Ideal.ofBits .f32 c = (cr : EReal)) (sv : Vec Ideal S128x256x1 .f32) (p : Fin 32) (q : Fin 128) :
    hatRow u c sv (ix2 p q) = ∑ k : Fin 256, hatE (u (ix3 p q k)) (cr : EReal) * sv (ix3 q k (0 : Fin 1)) := by
  refine (Ideal.multiReduction_add_single (φ := .f32) (mulf (hatW u c) (svB sv)) 0x00000000#32
    reduces_S32x128x256_S32x128 (.inl rfl) rfl (ix2 p q)).trans ?_
  show ∑ k : Fin 256, mulf (hatW u c) (svB sv) (reduces_S32x128x256_S32x128.lift (ix2 p q) k) = _
  refine Finset.sum_congr rfl fun k _ => ?_
  have hl : reduces_S32x128x256_S32x128.lift (ix2 p q) k = ix3 p q k := by
    funext a
    refine Fin.ext ?_
    match a with
    | ⟨0, _⟩ => rfl
    | ⟨1, _⟩ => rfl
    | ⟨2, _⟩ => rfl
  rw [hl]
  show hatW u c (ix3 p q k) * svB sv (ix3 p q k) = _
  rw [hatW_apply u c cr hc, svB_apply]

/-- The grid coordinate at (p, q, k): row p of the x block against row q of the W block at input k. -/
private theorem pay1_apply (x0 : Vec Ideal S32x256 .f32) (x1 : Vec Ideal S128x256 .f32) (p : Fin 32) (q : Fin 128)
    (k : Fin 256) : k0_pay1 x0 x1 (ix3 p q k) = coordE (x0 (ix2 p k)) (x1 (ix2 q k)) := by
  have h4 : broadcastTo S32x128x256 (shapeCast S32x1x256 x0 shapeCasts_S32x256_S32x1x256)
      broadcasts_S32x1x256_S32x128x256 (ix3 p q k) = x0 (ix2 p k) := by
    refine (broadcastTo_apply _ broadcasts_S32x1x256_S32x128x256 (ix3 p q k) (ix3 p (0 : Fin 1) k) (fun a => ?_)).trans ?_
    · match a with
      | ⟨0, _⟩ => rfl
      | ⟨1, _⟩ => rfl
      | ⟨2, _⟩ => rfl
    · exact shapeCast_apply x0 shapeCasts_S32x256_S32x1x256 (ix3 p (0 : Fin 1) k) (ix2 p k) (by
        rw [Shape.rowMajor_val_three, Shape.rowMajor_val_two]
        show p.val * 256 + k.val = (p.val * 1 + 0) * 256 + k.val
        omega)
  have h5 : broadcastTo S32x128x256 (shapeCast S1x128x256 x1 shapeCasts_S128x256_S1x128x256)
      broadcasts_S1x128x256_S32x128x256 (ix3 p q k) = x1 (ix2 q k) := by
    refine (broadcastTo_apply _ broadcasts_S1x128x256_S32x128x256 (ix3 p q k) (ix3 (0 : Fin 1) q k) (fun a => ?_)).trans ?_
    · match a with
      | ⟨0, _⟩ => rfl
      | ⟨1, _⟩ => rfl
      | ⟨2, _⟩ => rfl
    · exact shapeCast_ab_1ab_apply x1 shapeCasts_S128x256_S1x128x256 (0 : Fin 1) q k
  show (min (Ideal.ofBits .f32 0x3F800000#32) (max (Ideal.ofBits .f32 0xBF800000#32)
      (broadcastTo S32x128x256 (shapeCast S32x1x256 x0 shapeCasts_S32x256_S32x1x256)
          broadcasts_S32x1x256_S32x128x256 (ix3 p q k)
        * broadcastTo S32x128x256 (shapeCast S1x128x256 x1 shapeCasts_S128x256_S1x128x256)
          broadcasts_S1x128x256_S32x128x256 (ix3 p q k)))
      + Ideal.ofBits .f32 0x3F800000#32) * Ideal.ofBits .f32 0x40F00000#32 = _
  rw [h4, h5, Consts.ofBits_one, Consts.ofBits_neg_one, Consts.ofBits_7p5]
  rfl

/-- Knot g's slice of the spline block: its entry (q, k, 0) is the block's entry (q, k, g). -/
private theorem ld_knot (x2 : Vec Ideal S128x256x16 .f32) (g : ℕ) (hg : g < 16)
    (inb : ∀ a, (![0, 0, g] : Fin 3 → Nat) a + S128x256x1.size a ≤ S128x256x16.size a) (q : Fin 128) (k : Fin 256) :
    View.ld x2 (Rect.unit (s := S128x256x16) ![0, 0, g] S128x256x1.size inb) (ix3 q k (0 : Fin 1))
      = x2 (ix3 q k ⟨g, hg⟩) := by
  refine congrArg x2 (funext fun a => Fin.ext ?_)
  match a with
  | ⟨0, _⟩ => show 0 + 1 * q.val = q.val; omega
  | ⟨1, _⟩ => show 0 + 1 * k.val = k.val; omega
  | ⟨2, _⟩ => show g + 1 * 0 = g; omega

/-- The bias row at (p, q) is the bias block's entry (0, q). -/
private theorem biasB_apply (b : Vec Ideal S1x128 .f32) (p : Fin 32) (q : Fin 128) :
    biasB b (ix2 p q) = b (ix2 (0 : Fin 1) q) := by
  unfold biasB
  refine (broadcastTo_1b_ab_apply _ broadcasts_S1x128_S32x128 p q).trans ?_
  rw [shapeCast_self]

end AtIdeal

/-- The output block at (p, q), from the four input blocks. -/
theorem out0_4_apply (x0 : Vec Ideal S32x256 .f32) (x1 : Vec Ideal S128x256 .f32) (x2 : Vec Ideal S128x256x16 .f32)
    (x3 : Vec Ideal S1x128 .f32) (p : Fin 32) (q : Fin 128) :
    out0_4 (F := Ideal) x0 x1 x2 x3 (ix2 p q)
      = kernelPointE (fun k => coordE (x0 (ix2 p k)) (x1 (ix2 q k))) (fun k g => x2 (ix3 q k g)) (x3 (ix2 (0 : Fin 1) q)) := by
  -- the block of grid coordinates at (p, q, k), the two loads being of the whole blocks
  have hU : ∀ k : Fin 256, k0_pay1 (View.ld x0 r0_0) (View.ld x1 r0_1) (ix3 p q k)
      = coordE (x0 (ix2 p k)) (x1 (ix2 q k)) := fun k => by
    rw [View.ld_unit_zero hz2, View.ld_unit_zero hz2]
    exact pay1_apply x0 x1 p q k
  -- knot g's row sum at (p, q), its word c denoting the real number g and its slice read at offset g of the last axis
  have row : ∀ (g : ℕ) (hg : g < 16) (c : BitVec 32)
      (inb : ∀ a, (![0, 0, g] : Fin 3 → Nat) a + S128x256x1.size a ≤ S128x256x16.size a),
      Ideal.ofBits .f32 c = (((g : ℕ) : ℝ) : EReal) →
      hatRow (k0_pay1 (View.ld x0 r0_0) (View.ld x1 r0_1)) c
          (View.ld x2 (Rect.unit (s := S128x256x16) ![0, 0, g] S128x256x1.size inb)) (ix2 p q)
        = rowE (fun k => coordE (x0 (ix2 p k)) (x1 (ix2 q k))) (fun k g => x2 (ix3 q k g)) ⟨g, hg⟩ := by
    intro g hg c inb hc
    refine (hatRow_apply _ c _ hc _ p q).trans ?_
    unfold rowE
    refine Finset.sum_congr rfl fun k _ => ?_
    rw [hU k, ld_knot x2 g hg inb q k]
  have e0 := row 0 (by omega) 0x00000000#32 inb_S128x256x16_S128x256x1_0_0_0 (Consts.ofBits_zero.trans (by norm_num))
  have e1 := row 1 (by omega) 0x3F800000#32 inb_S128x256x16_S128x256x1_0_0_1 (Consts.ofBits_one.trans (by norm_num))
  have e2 := row 2 (by omega) 0x40000000#32 inb_S128x256x16_S128x256x1_0_0_2 (Consts.ofBits_two.trans (by norm_num))
  have e3 := row 3 (by omega) 0x40400000#32 inb_S128x256x16_S128x256x1_0_0_3 (Consts.ofBits_three.trans (by norm_num))
  have e4 := row 4 (by omega) 0x40800000#32 inb_S128x256x16_S128x256x1_0_0_4 (Consts.ofBits_four.trans (by norm_num))
  have e5 := row 5 (by omega) 0x40A00000#32 inb_S128x256x16_S128x256x1_0_0_5 (Consts.ofBits_five.trans (by norm_num))
  have e6 := row 6 (by omega) 0x40C00000#32 inb_S128x256x16_S128x256x1_0_0_6 (Consts.ofBits_six.trans (by norm_num))
  have e7 := row 7 (by omega) 0x40E00000#32 inb_S128x256x16_S128x256x1_0_0_7 (Consts.ofBits_seven.trans (by norm_num))
  have e8 := row 8 (by omega) 0x41000000#32 inb_S128x256x16_S128x256x1_0_0_8 (Consts.ofBits_eight.trans (by norm_num))
  have e9 := row 9 (by omega) 0x41100000#32 inb_S128x256x16_S128x256x1_0_0_9 (Consts.ofBits_nine.trans (by norm_num))
  have e10 := row 10 (by omega) 0x41200000#32 inb_S128x256x16_S128x256x1_0_0_10 (Consts.ofBits_ten.trans (by norm_num))
  have e11 := row 11 (by omega) 0x41300000#32 inb_S128x256x16_S128x256x1_0_0_11 (Consts.ofBits_eleven.trans (by norm_num))
  have e12 := row 12 (by omega) 0x41400000#32 inb_S128x256x16_S128x256x1_0_0_12 (Consts.ofBits_twelve.trans (by norm_num))
  have e13 := row 13 (by omega) 0x41500000#32 inb_S128x256x16_S128x256x1_0_0_13 (Consts.ofBits_thirteen.trans (by norm_num))
  have e14 := row 14 (by omega) 0x41600000#32 inb_S128x256x16_S128x256x1_0_0_14 (Consts.ofBits_fourteen.trans (by norm_num))
  have e15 := row 15 (by omega) 0x41700000#32 inb_S128x256x16_S128x256x1_0_0_15 (Consts.ofBits_fifteen.trans (by norm_num))
  -- the block is the sixteen rows added onto zero, then the bias row; read each summand at (p, q)
  refine (congrFun (out0_4_eq x0 x1 x2 x3) (ix2 p q)).trans ?_
  simp only [addf_apply, broadcast_apply]
  rw [e0, e1, e2, e3, e4, e5, e6, e7, e8, e9, e10, e11, e12, e13, e14, e15, biasB_apply, View.ld_unit_zero hz2]
  unfold kernelPointE
  rw [show (Scalar.ofBits .f32 0x00000000#32 : Ideal .f32) = ((0 : ℝ) : EReal) from Consts.ofBits_zero]
  rfl

end Cert.Kan

end
-- ==== Proof.Blocks.lean ====
/-
  From blocks to the array.

  Grid point t = (o, b) stages rows 32 b … 32 b + 31 of x, rows 128 o … 128 o + 127 of W and of the spline values,
  columns 128 o … of the bias row, and writes back the [32 × 128] block of the result at rows 32 b …, columns 128 o ….
  Entry (p, q) of that block is the kernel-shaped point value of row 32 b + p of x against row 128 o + q of W, so every
  block is the restriction of one whole-array function, and the 64 blocks cover the result.
-/
import proofs.«137080_j14714557956115_1_alg».proof.Proof.Gen.KernelIdeal.Value
import proofs.«137080_j14714557956115_1_alg».proof.Proof.KernelAt
import Idealize.ShloMosaic.Lib.ValueLayout

noncomputable section

namespace Cert.Kan

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The printed index maps over the 64 grid points: each input window's block index is the result window's row or
    column block index, or zero, and the result's block indices stay in their ranges. -/
private theorem idx_facts : ∀ t : Fin cfg0.N,
    win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 3) = win0_4.index t (1 : Fin 2)
    ∧ win0_2.index t (1 : Fin 3) = 0
    ∧ win0_2.index t (2 : Fin 3) = 0
    ∧ win0_3.index t (0 : Fin 2) = 0
    ∧ win0_3.index t (1 : Fin 2) = win0_4.index t (1 : Fin 2)
    ∧ win0_4.index t (0 : Fin 2) ≤ 31
    ∧ win0_4.index t (1 : Fin 2) ≤ 1 :=
  (by decide +kernel : ∀ t : Fin grid0.N, _)

/-- Every block of the result is some grid point's. -/
private theorem idx_onto : ∀ (q0 : Fin 32) (q1 : Fin 2), ∃ t : Fin cfg0.N, win0_4.index t = ![q0.val, q1.val] :=
  (by decide +kernel : ∀ (q0 : Fin 32) (q1 : Fin 2), ∃ t : Fin grid0.N, win0_4.index t = ![q0.val, q1.val])

/-- The bias row as the region finds it: the bias vector laid out as one row. -/
private theorem V_row (c : Dev nD) :
    (V m c main_v0 : S1x256.Idx → EReal)
      = shapeCast S1x256 (m ((c : Thread nD τ).loc main_arg3) : S256.Idx → EReal) shapeCasts_S256_S1x256 := by
  dsimp only [Gen.V, Gen.hostOps0]
  after_results
  rfl

/-- Entry (0, j) of the bias row is entry j of the bias vector. -/
private theorem V_row_apply (c : Dev nD) (u : Fin 1) (j : Fin 256) :
    (V m c main_v0 : S1x256.Idx → EReal) (ix2 u j) = (m ((c : Thread nD τ).loc main_arg3) : S256.Idx → EReal) (ix1 j) := by
  rw [V_row]
  exact shapeCast_a_1a_apply _ _ u j

/-- Entry (p, k) of the x block at a point is entry (32 b + p, k) of x, b the result's row block. -/
private theorem iblk0_apply (c : Dev nD) (t : Fin cfg0.N) (p : Fin 32) (k : Fin 256) (i : S1024x256.Idx)
    (h0 : (i 0).val = win0_4.index t (0 : Fin 2) * 32 + p.val) (h1 : (i 1).val = k.val) :
    (iblk m c 0 t : Vec Ideal S32x256 .f32) (ix2 p k) = (m ((c : Thread nD τ).loc main_arg0) : S1024x256.Idx → EReal) i := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 32 + 1 * p.val = (i 0).val; omega
  | ⟨1, _⟩ => show win0_0.index t (1 : Fin 2) * 256 + 1 * k.val = (i 1).val; omega

/-- Entry (q, k) of the W block at a point is entry (128 o + q, k) of W, o the result's column block. -/
private theorem iblk1_apply (c : Dev nD) (t : Fin cfg0.N) (q : Fin 128) (k : Fin 256) (i : S256x256.Idx)
    (h0 : (i 0).val = win0_4.index t (1 : Fin 2) * 128 + q.val) (h1 : (i 1).val = k.val) :
    (iblk m c 1 t : Vec Ideal S128x256 .f32) (ix2 q k) = (m ((c : Thread nD τ).loc main_arg1) : S256x256.Idx → EReal) i := by
  obtain ⟨-, -, e2, e3, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 128 + 1 * q.val = (i 0).val; omega
  | ⟨1, _⟩ => show win0_1.index t (1 : Fin 2) * 256 + 1 * k.val = (i 1).val; omega

/-- Entry (q, k, g) of the spline-value block at a point is entry (128 o + q, k, g) of the spline values. -/
private theorem iblk2_apply (c : Dev nD) (t : Fin cfg0.N) (q : Fin 128) (k : Fin 256) (g : Fin 16) (i : S256x256x16.Idx)
    (h0 : (i 0).val = win0_4.index t (1 : Fin 2) * 128 + q.val) (h1 : (i 1).val = k.val) (h2 : (i 2).val = g.val) :
    (iblk m c 2 t : Vec Ideal S128x256x16 .f32) (ix3 q k g) = (m ((c : Thread nD τ).loc main_arg2) : S256x256x16.Idx → EReal) i := by
  obtain ⟨-, -, -, -, e4, e5, e6, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 128 + 1 * q.val = (i 0).val; omega
  | ⟨1, _⟩ => show win0_2.index t (1 : Fin 3) * 256 + 1 * k.val = (i 1).val; omega
  | ⟨2, _⟩ => show win0_2.index t (2 : Fin 3) * 16 + 1 * g.val = (i 2).val; omega

/-- Entry (0, q) of the bias block at a point is entry 128 o + q of the bias. -/
private theorem iblk3_apply (c : Dev nD) (t : Fin cfg0.N) (q : Fin 128) (j : Fin 256)
    (h : j.val = win0_4.index t (1 : Fin 2) * 128 + q.val) :
    (iblk m c 3 t : Vec Ideal S1x128 .f32) (ix2 (0 : Fin 1) q) = (m ((c : Thread nD τ).loc main_arg3) : S256.Idx → EReal) (ix1 j) := by
  obtain ⟨-, -, -, -, -, -, -, e7, e8, -⟩ := idx_facts t
  unfold iblk
  rw [View.read_apply]
  show V m c main_v0 _ = _
  refine Eq.trans ?_ (V_row_apply m c (0 : Fin 1) j)
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = j.val; omega

/-- What a grid point writes back is its block of the kernel-shaped function of the four arguments. -/
private theorem flushed_eq (c : Dev nD) (t : Fin cfg0.N) :
    (dats m 0 c).flushed 4 t = ((cfg0.win 4).blk t).view.read (Elt Ideal)
      (GK (m ((c : Thread nD τ).loc main_arg0)) (m ((c : Thread nD τ).loc main_arg1))
        (m ((c : Thread nD τ).loc main_arg2)) (m ((c : Thread nD τ).loc main_arg3))) := by
  rw [Value.flushed4]
  funext y
  obtain ⟨p, q, rfl⟩ : ∃ (p : Fin 32) (q : Fin 128), y = ix2 p q := ⟨y 0, y 1, eq_ix2 y⟩
  show (out0_4 (F := Ideal) _ _ _ _ (ix2 p q) : EReal) = GK _ _ _ _ (((cfg0.win 4).blk t).view.emb (ix2 p q))
  refine (out0_4_apply (iblk m c 0 t) (iblk m c 1 t) (iblk m c 2 t) (iblk m c 3 t) p q).trans ?_
  have hJ0 : ((((cfg0.win 4).blk t).view.emb (ix2 p q)) 0).val = win0_4.index t (0 : Fin 2) * 32 + p.val := by
    show win0_4.index t (0 : Fin 2) * 32 + 1 * p.val = _; omega
  have hJ1 : ((((cfg0.win 4).blk t).view.emb (ix2 p q)) 1).val = win0_4.index t (1 : Fin 2) * 128 + q.val := by
    show win0_4.index t (1 : Fin 2) * 128 + 1 * q.val = _; omega
  have hcongr : ∀ (U U' : Fin 256 → EReal) (s s' : Fin 256 → Fin 16 → EReal) (β β' : EReal),
      U = U' → s = s' → β = β' → kernelPointE U s β = kernelPointE U' s' β' := by
    rintro U _ s _ β _ rfl rfl rfl; rfl
  unfold GK
  refine hcongr _ _ _ _ _ _ (funext fun k => ?_) (funext fun k => funext fun g => ?_) ?_
  · exact congrArg₂ coordE (iblk0_apply m c t p k _ hJ0 rfl) (iblk1_apply m c t q k _ hJ1 rfl)
  · exact iblk2_apply m c t q k g _ hJ1 rfl rfl
  · exact iblk3_apply m c t q _ hJ1

/-- An index of the result is in a point's block iff each coordinate is in the block's range on its axis. -/
private theorem mem_blk (t : Fin cfg0.N) (i : S1024x256.Idx) :
    i ∈ ((cfg0.win 4).blk t).view.set ↔ ∀ a : Fin 2, win0_4.index t a * S32x128.size a ≤ (i a).val
      ∧ (i a).val < win0_4.index t a * S32x128.size a + S32x128.size a := by
  show i ∈ ((View.whole main_v1).slice (win0_4.rect t)).set ↔ _
  rw [View.set_slice_whole, Rect.mem_set_unit]
  exact Iff.rfl

/-- The 64 blocks cover the result: entry (i, j) lies in the block with block index (i / 32, j / 128). -/
private theorem cover (i : S1024x256.Idx) :
    ∃ t : Fin cfg0.N, (cfg0.win 4).flush t = true ∧ i ∈ ((cfg0.win 4).blk t).view.set := by
  have hi0 : (i 0).val < 1024 := (i 0).isLt
  have hi1 : (i 1).val < 256 := (i 1).isLt
  obtain ⟨t, ht⟩ := idx_onto ⟨(i 0).val / 32, by omega⟩ ⟨(i 1).val / 128, by omega⟩
  have q0 : win0_4.index t (0 : Fin 2) = (i 0).val / 32 := congrFun ht 0
  have q1 : win0_4.index t (1 : Fin 2) = (i 1).val / 128 := congrFun ht 1
  refine ⟨t, flush0_4 t, ?_⟩
  rw [mem_blk]
  intro a
  match a with
  | ⟨0, _⟩ =>
    show win0_4.index t (0 : Fin 2) * 32 ≤ (i 0).val ∧ (i 0).val < win0_4.index t (0 : Fin 2) * 32 + 32
    omega
  | ⟨1, _⟩ =>
    show win0_4.index t (1 : Fin 2) * 128 ≤ (i 1).val ∧ (i 1).val < win0_4.index t (1 : Fin 2) * 128 + 128
    omega

/-- So the result array ends at the kernel-shaped function of the four arguments. -/
private theorem final (c : Dev nD) :
    (dats m 0 c).arrAt 4 cfg0.N
      = GK (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The idealized kernel runs, and its result array ends at the kernel-shaped function of the four arguments. -/
theorem kernel_run : θ_run (defs (F := Ideal)) (onTc (τ := τ) (main (F := Ideal))) ⟨m, fun _ => 0, ρ⟩ fun r => ∀ c : Dev nD,
      r.2.mem ((c : Thread nD τ).loc main_v1)
        = GK (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  exact (θ_run defs _ _).mono (fun r h c => ⟨(h c).1.trans (final m c), (h c).2⟩) (Value.run_blocks m ρ)

end Cert.Kan

end
-- ==== Proof.Words.lean ====
/-
  The reference's index arithmetic on 32-bit words.

  A grid coordinate r in [0, 15] is floored (an integer 0 … 15), converted to a signed word (no clamping occurs in
  that range), and clipped to [0, 14]: the word of the left knot min(14, ⌊r⌋). The row and column numbers the gather
  is addressed with pass through jnp's negative-index wrap, a select that never fires on a non-negative number.
-/
import proofs.«137080_j14714557956115_1_alg».proof.Proof.Spec
import Mathlib.Tactic.IntervalCases

noncomputable section

namespace Cert.Kan.Words

open Idealize.ShloMosaic Cert.Kan

/-- A word below 2^31 reads back, signed, as the number itself: the sign bit is clear. -/
private theorem toInt_ofNat_small (n : ℕ) (hn : n < 2 ^ 31) : (BitVec.ofNat 32 n).toInt = (n : ℤ) := by
  rw [BitVec.toInt_eq_toNat_cond, BitVec.toNat_ofNat]
  have hmod : n % 2 ^ 32 = n := Nat.mod_eq_of_lt (by omega)
  rw [hmod, if_pos (by omega)]

/-- Floor, convert, clip to [0, 14]: the left knot's word. -/
theorem knot_word (r : ℝ) (h0 : 0 ≤ r) (h15 : r ≤ 15) :
    IntOp.minsi (14#32) (IntOp.maxsi (0#32) (Ideal.fptosi 32 (Ideal.liftRound Int.floor (r : EReal))))
      = BitVec.ofNat 32 (knot r) := by
  -- the floor of r is a natural number n ≤ 15
  have hfl0 : (0 : ℤ) ≤ ⌊r⌋ := Int.floor_nonneg.mpr h0
  obtain ⟨n, hn, hfl⟩ : ∃ n : ℕ, n ≤ 15 ∧ ⌊r⌋ = (n : ℤ) := by
    refine ⟨⌊r⌋₊, Nat.floor_le_of_le (by exact_mod_cast h15), ?_⟩
    rw [← Int.floor_toNat]
    exact (Int.toNat_of_nonneg hfl0).symm
  have hk : knot r = min 14 n := by
    unfold knot
    rw [← Int.floor_toNat, hfl, Int.toNat_natCast]
  -- the conversion does not clamp: the word of n
  have hfp : Ideal.fptosi 32 (Ideal.liftRound Int.floor (r : EReal)) = BitVec.ofNat 32 n := by
    rw [Ideal.liftRound_coe, Ideal.fptosi, Ideal.toIntClamped_coe]
    have hnn : (0 : ℝ) ≤ ((⌊r⌋ : ℤ) : ℝ) := by exact_mod_cast hfl0
    rw [if_pos hnn, Int.floor_intCast, hfl]
    -- n lies strictly inside the signed 32-bit range, so neither clamp binds
    have hval : max (-(((2 ^ (32 - 1) : ℕ) : ℤ))) (min ((((2 ^ (32 - 1) : ℕ) : ℤ)) - 1) (n : ℤ)) = (n : ℤ) := by
      have hp : ((2 ^ (32 - 1) : ℕ) : ℤ) = 2147483648 := by norm_num
      rw [hp]; omega
    rw [hval]
    exact BitVec.ofInt_natCast 32 n
  rw [hfp, hk]
  -- sixteen closed cases
  interval_cases n <;> decide

/-- jnp's negative-index wrap leaves a non-negative number alone. -/
theorem wrap_noop (n N : ℕ) (hn : n < 2 ^ 31) :
    Scalar.select (IntOp.cmpi .slt (BitVec.ofNat 32 n) (0#32)) (IntOp.addi (BitVec.ofNat 32 n) (BitVec.ofNat 32 N))
      (BitVec.ofNat 32 n) = BitVec.ofNat 32 n := by
  have hs : (BitVec.ofNat 32 n).slt (0#32) = false := by
    rw [BitVec.slt, toInt_ofNat_small n hn]
    have h0 : (0#32 : BitVec 32).toInt = 0 := by decide
    rw [h0]
    exact decide_eq_false (by omega)
  have hc : IntOp.cmpi .slt (BitVec.ofNat 32 n) (0#32) = 0#1 := by
    show BitVec.ofBool ((BitVec.ofNat 32 n).slt (0#32)) = 0#1
    rw [hs]; rfl
  rw [hc, Scalar.select, if_neg (by decide)]

/-- The right neighbour's word. -/
theorem addi_one (n : ℕ) : IntOp.addi (BitVec.ofNat 32 n) (1#32) = BitVec.ofNat 32 (n + 1) := by
  show BitVec.ofNat 32 n + BitVec.ofNat 32 1 = BitVec.ofNat 32 (n + 1)
  exact (BitVec.ofNat_add n 1).symm

/-- A small number's word reads back, signed, as the number. -/
theorem toInt_toNat_ofNat (n : ℕ) (hn : n < 2 ^ 31) : (BitVec.ofNat 32 n).toInt.toNat = n := by
  rw [toInt_ofNat_small n hn, Int.toNat_natCast]

/-- Converting a small number's word to a float gives the number. -/
theorem sitofp_ofNat (n : ℕ) (hn : n < 2 ^ 31) :
    FloatOps.sitofp (F := Ideal) .f32 (BitVec.ofNat 32 n) = (((n : ℕ) : ℝ) : EReal) := by
  show ((((BitVec.ofNat 32 n).toInt : ℤ) : ℝ) : EReal) = (((n : ℕ) : ℝ) : EReal)
  rw [toInt_ofNat_small n hn, Int.cast_natCast]

end Cert.Kan.Words

end
-- ==== Proof.LibPointGather.lean ====
/-
  A POINT GATHER over a rank-3 operand, and the index array it is addressed with.

  jnp's `a[i0, i1, i2]` with three index arrays of one shape [n0, n1, n2] lowers to a `stablehlo.gather` whose start
  indices are the three arrays laid side by side along a new last axis ([n0, n1, n2, 3], a concatenation of three
  [n0, n1, n2, 1] pieces), every operand axis collapsed and start-indexed, no offset or batching axes. Result position
  j reads the operand at the three start-index components found at (j, 0), (j, 1), (j, 2), each read signed and
  clamped into its axis.
-/
import Idealize.ShloMosaic.PureOps.ShapeOps
import Idealize.ShloMosaic.Lib.ValueIdx
import Idealize.ShloMosaic.Lib.Pipeline.Value

noncomputable section

namespace Cert.Lib.PointGather

open Idealize.ShloMosaic Idealize.ShloMosaic.ValueIdx

/-- Where result position `j` finds component `a` of its start index: `j`'s three coordinates, then `a` on the
    index-vector axis. -/
abbrev comp {n0 n1 n2 : Nat} (j : (⟨3, ![n0, n1, n2]⟩ : Shape).Idx) (a : Fin 3) : (⟨4, ![n0, n1, n2, 3]⟩ : Shape).Idx :=
  ix4 (j 0) (j 1) (j 2) a

/-- Result position `j` in a unit-width piece of the index array. -/
abbrev unit {n0 n1 n2 : Nat} (j : (⟨3, ![n0, n1, n2]⟩ : Shape).Idx) : (⟨4, ![n0, n1, n2, 1]⟩ : Shape).Idx :=
  ix4 (j 0) (j 1) (j 2) (0 : Fin 1)

/-- Reading a list at the position of `b` in another list, after both lists are rewritten. -/
private theorem getElem_idxOf_congr {α β : Type} [BEq β] {l₁ l₁' : List α} {l₂ l₂' : List β}
    (e₁ : l₁ = l₁') (e₂ : l₂ = l₂') (b : β) (h : l₂.idxOf b < l₁.length) :
    l₁[l₂.idxOf b]'h = l₁'[l₂'.idxOf b]'(e₁ ▸ e₂ ▸ h) := by
  subst e₁ e₂; rfl

/-- The operand coordinate on axis `a`: component `a` of the start index, read signed and clamped into the axis. -/
theorem operandIdx_val {A B C n0 n1 n2 w : Nat}
    (d : GatherDims ⟨3, ![A, B, C]⟩ ⟨4, ![n0, n1, n2, 3]⟩ ⟨3, ![n0, n1, n2]⟩)
    (hoff : d.offsetDims = []) (hcoll : d.collapsedSliceDims = [0, 1, 2]) (hob : d.operandBatchingDims = [])
    (hsim : d.startIndexMap = [0, 1, 2]) (hivd : d.indexVectorDim = 3)
    (idx : IVec ⟨4, ![n0, n1, n2, 3]⟩ w) (j : (⟨3, ![n0, n1, n2]⟩ : Shape).Idx) (a : Fin 3) :
    (d.operandIdx j idx a).val = min (idx (comp j a)).toInt.toNat ((![A, B, C] : Fin 3 → Nat) a - 1) := by
  have hb : a ∉ d.operandBatchingDims := by rw [hob]; exact List.not_mem_nil
  have hc : a ∈ d.collapsedSliceDims := by
    rw [hcoll]
    match a with
    | ⟨0, _⟩ => simp
    | ⟨1, _⟩ => simp
    | ⟨2, _⟩ => simp
  have hk : a ∉ d.sKept := by rw [GatherDims.mem_sKept]; exact fun h => h.1 hc
  have hm : a ∈ d.startIndexMap := by rw [hsim, ← hcoll]; exact hc
  have hsl : d.sliceSizes a = 1 := d.slice_collapsed a hc
  -- the result's batch axes are all three of its axes, and they read the start indices' first three axes in order
  have hbd : d.batchDims = [0, 1, 2] := by
    show Shape.kept _ d.offsetDims = _
    rw [hoff]; rfl
  have hsk : d.siKept = [0, 1, 2] := by
    show (List.finRange 4).filter (fun b : Fin 4 => decide (b.val ≠ d.indexVectorDim)) = _
    rw [hivd]; rfl
  have hidx : List.idxOf a ([0, 1, 2] : List (Fin 3)) = a.val := by
    match a with
    | ⟨0, _⟩ => rfl
    | ⟨1, _⟩ => rfl
    | ⟨2, _⟩ => rfl
  simp only [GatherDims.operandIdx, GatherDims.batchCoord_eq_zero _ _ _ hb, GatherDims.offCoord_eq_zero _ _ _ hk,
    Nat.add_zero, GatherDims.start, dif_pos hm]
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    rw [getElem_idxOf_congr hbd hsk]
    rfl
  | ⟨1, _⟩ =>
    unfold GatherDims.siIdx
    rw [dif_neg (by rw [hivd]; simp)]
    unfold GatherDims.siCoord
    apply Fin.ext
    simp only [Fin.val_cast]
    rw [getElem_idxOf_congr hbd hsk]
    rfl
  | ⟨2, _⟩ =>
    unfold GatherDims.siIdx
    rw [dif_neg (by rw [hivd]; simp)]
    unfold GatherDims.siCoord
    apply Fin.ext
    simp only [Fin.val_cast]
    rw [getElem_idxOf_congr hbd hsk]
    rfl
  | ⟨3, _⟩ =>
    unfold GatherDims.siIdx
    rw [dif_pos (by rw [hivd])]
    apply Fin.ext
    show List.idxOf a d.startIndexMap = a.val
    rw [hsim]; exact hidx

/-- THE POINT GATHER: when the three clamped components are `p`, `q`, `r`, the result at `j` is the operand at (p, q, r). -/
theorem gather_point3_eq {α : Type} {A B C n0 n1 n2 w : Nat}
    (d : GatherDims ⟨3, ![A, B, C]⟩ ⟨4, ![n0, n1, n2, 3]⟩ ⟨3, ![n0, n1, n2]⟩)
    (hoff : d.offsetDims = []) (hcoll : d.collapsedSliceDims = [0, 1, 2]) (hob : d.operandBatchingDims = [])
    (hsim : d.startIndexMap = [0, 1, 2]) (hivd : d.indexVectorDim = 3)
    (x : (⟨3, ![A, B, C]⟩ : Shape).Idx → α) (idx : IVec ⟨4, ![n0, n1, n2, 3]⟩ w) (j : (⟨3, ![n0, n1, n2]⟩ : Shape).Idx)
    (p : Fin A) (q : Fin B) (r : Fin C)
    (h0 : min (idx (comp j 0)).toInt.toNat (A - 1) = p.val)
    (h1 : min (idx (comp j 1)).toInt.toNat (B - 1) = q.val)
    (h2 : min (idx (comp j 2)).toInt.toNat (C - 1) = r.val) :
    Host.gather d x idx j = x (ix3 p q r) := by
  unfold Host.gather
  congr 1
  funext a
  apply Fin.ext
  match a with
  | ⟨0, _⟩ => exact (operandIdx_val d hoff hcoll hob hsim hivd idx j 0).trans h0
  | ⟨1, _⟩ => exact (operandIdx_val d hoff hcoll hob hsim hivd idx j 1).trans h1
  | ⟨2, _⟩ => exact (operandIdx_val d hoff hcoll hob hsim hivd idx j 2).trans h2

/-- THE INDEX ARRAY: three unit-width pieces side by side along the last axis; component `a` at `j` is piece `a` at `j`. -/
theorem concat3_apply {α : Type} {n0 n1 n2 : Nat} (x y z : (⟨4, ![n0, n1, n2, 1]⟩ : Shape).Idx → α)
    (h : Shape.Concatenates
      (([⟨⟨4, ![n0, n1, n2, 1]⟩, x⟩, ⟨⟨4, ![n0, n1, n2, 1]⟩, y⟩, ⟨⟨4, ![n0, n1, n2, 1]⟩, z⟩] :
        List ((s : Shape) × (s.Idx → α))).map (·.1)) ⟨4, ![n0, n1, n2, 3]⟩ 3)
    (j : (⟨3, ![n0, n1, n2]⟩ : Shape).Idx) (a : Fin 3) :
    concatenate ⟨4, ![n0, n1, n2, 3]⟩ 3
        [⟨⟨4, ![n0, n1, n2, 1]⟩, x⟩, ⟨⟨4, ![n0, n1, n2, 1]⟩, y⟩, ⟨⟨4, ![n0, n1, n2, 1]⟩, z⟩] h (comp j a)
      = (match a with | ⟨0, _⟩ => x | ⟨1, _⟩ => y | ⟨2, _⟩ => z) (unit j) := by
  -- off the last axis the unit-width index and the component's index have the same coordinates
  have hi : ∀ (c : Fin 3) (b : Fin 4), b.cast (rfl : 4 = 4) ≠ (3 : Fin 4) →
      (unit j b).val = (comp j c (b.cast (rfl : 4 = 4))).val := by
    intro c b hb
    match b with
    | ⟨0, _⟩ => rfl
    | ⟨1, _⟩ => rfl
    | ⟨2, _⟩ => rfl
    | ⟨3, _⟩ => exact absurd rfl hb
  match a with
  | ⟨0, _⟩ =>
    exact concatenate_apply_piece (3 : Fin 4) _ h (comp j 0) 0 (by simp) ⟨4, ![n0, n1, n2, 1]⟩ x rfl rfl 0 rfl
      (unit j) (hi 0) rfl
  | ⟨1, _⟩ =>
    exact concatenate_apply_piece (3 : Fin 4) _ h (comp j 1) 1 (by simp) ⟨4, ![n0, n1, n2, 1]⟩ y rfl rfl 1 rfl
      (unit j) (hi 1) rfl
  | ⟨2, _⟩ =>
    exact concatenate_apply_piece (3 : Fin 4) _ h (comp j 2) 2 (by simp) ⟨4, ![n0, n1, n2, 1]⟩ z rfl rfl 2 rfl
      (unit j) (hi 2) rfl

end Cert.Lib.PointGather

end
-- ==== Proof.RefAt.lean ====
/-
  The reference's result as the reference-shaped function.

  Entry (b, o) of the reference's result is zero plus the sum over the 256 inputs k of v0 + frac · (v1 − v0), plus
  bias o, where u is the grid coordinate of x[b, k] · W[o, k], the index word is floor(u) converted and clipped to
  [0, 14], frac = u − index, and v0, v1 are the spline values of edge (o, k) gathered at the index and at index + 1.
  The gather's row and column numbers are iotas passed through a wrap that never fires; all three components are in
  range, so the clamp of the gather does nothing.
-/
import proofs.«137080_j14714557956115_1_alg».proof.Proof.RefReadP
import proofs.«137080_j14714557956115_1_alg».proof.Proof.Spec
import proofs.«137080_j14714557956115_1_alg».proof.Proof.Words
import proofs.«137080_j14714557956115_1_alg».proof.Proof.LibPointGather
import proofs.«137080_j14714557956115_1_alg».proof.Proof.Consts
import proofs.«137080_j14714557956115_1_alg».proof.Proof.Bridge
import Idealize.ShloMosaic.Lib.ValueIdx
import Idealize.ShloMosaic.Lib.IdealHost

noncomputable section

open scoped BigOperators

namespace Cert.Kan

open Idealize.ShloMosaic Idealize.ShloMosaic.ValueIdx Cert.ReferenceIdeal
open Cert.ReferenceIdeal.Gen Cert.ReferenceIdeal.ReadP Cert.Lib

/-! ## Where the layout operations read -/

private theorem idxA (b : Fin 1024) (o : Fin 256) (k : Fin 256) :
    idx_main_v0 (idx_main_v2 (ix3 b o k)) = ix2 b k := by
  funext a; match a with | ⟨0, _⟩ => rfl | ⟨1, _⟩ => rfl

private theorem idxW (b : Fin 1024) (o : Fin 256) (k : Fin 256) :
    idx_main_v1 (idx_main_v3 (ix3 b o k)) = ix2 o k := by
  funext a; match a with | ⟨0, _⟩ => rfl | ⟨1, _⟩ => rfl

/-! ## The grid coordinate, the knot word, the offset -/

/-- Stage 9 at (b, o, k) is the grid coordinate of the edge. -/
private theorem v9_at (x0 : (⟨S1024x256, .f32⟩ : BufTy).Contents (Elt Ideal)) (x1 : (⟨S256x256, .f32⟩ : BufTy).Contents (Elt Ideal))
    (b : Fin 1024) (o : Fin 256) (k : Fin 256) :
    val_main_v9 (F := Ideal) x0 x1 (ix3 b o k) = coordE (x0 (ix2 b k)) (x1 (ix2 o k)) := by
  rw [val_main_v9_apply, val_main_v7_apply, val_main_v5_apply, val_main_call0_v2_apply, val_main_v4_apply,
    val_main_v2_apply, val_main_v0_apply, val_main_v3_apply, val_main_v1_apply, val_main_v8_apply, val_main_cst_2_apply,
    val_main_v6_apply, val_main_cst_1_apply, val_main_call0_v4_apply, val_main_call0_v3_apply, val_main_cst_0_apply,
    val_main_call0_v1_apply, val_main_call0_v0_apply, val_main_cst_apply, idxA, idxW]
  show (min (Ideal.ofBits .f32 0x3F800000#32) (max (Ideal.ofBits .f32 0xBF800000#32) (x0 (ix2 b k) * x1 (ix2 o k)))
    + Ideal.ofBits .f32 0x3F800000#32) * Ideal.ofBits .f32 0x40F00000#32 = _
  rw [Consts.ofBits_one, Consts.ofBits_neg_one, Consts.ofBits_7p5]
  rfl

/-- The knot of the edge (b, o, k): a number at most 14. -/
private abbrev kn (x0 : (⟨S1024x256, .f32⟩ : BufTy).Contents (Elt Ideal)) (x1 : (⟨S256x256, .f32⟩ : BufTy).Contents (Elt Ideal))
    (b : Fin 1024) (o : Fin 256) (k : Fin 256) : ℕ := knotE (coordE (x0 (ix2 b k)) (x1 (ix2 o k)))

private theorem kn_le (x0 : (⟨S1024x256, .f32⟩ : BufTy).Contents (Elt Ideal)) (x1 : (⟨S256x256, .f32⟩ : BufTy).Contents (Elt Ideal))
    (b : Fin 1024) (o : Fin 256) (k : Fin 256) : kn x0 x1 b o k ≤ 14 := knotE_le _

/-- Stage 12 at (b, o, k) is the word of the edge's left knot. -/
private theorem v12_at (x0 : (⟨S1024x256, .f32⟩ : BufTy).Contents (Elt Ideal)) (x1 : (⟨S256x256, .f32⟩ : BufTy).Contents (Elt Ideal))
    (b : Fin 1024) (o : Fin 256) (k : Fin 256) :
    val_main_v12 (F := Ideal) x0 x1 (ix3 b o k) = BitVec.ofNat 32 (kn x0 x1 b o k) := by
  rw [val_main_v12_apply, val_main_call1_v4_apply, val_main_call1_v3_apply, val_main_c_3_apply, val_main_call1_v2_apply,
    val_main_call1_v1_apply, val_main_call1_v0_apply, val_main_c_apply, val_main_v11_apply, val_main_v10_apply, v9_at]
  obtain ⟨r, hr, h0, h15⟩ := coordE_real (x0 (ix2 b k)) (x1 (ix2 o k))
  have hk : kn x0 x1 b o k = knot r := by
    show knot (coordE (x0 (ix2 b k)) (x1 (ix2 o k))).toReal = knot r
    rw [hr, EReal.toReal_coe]
  rw [hk, hr]
  exact Words.knot_word r h0 h15

/-- Stage 14 at (b, o, k) is the grid coordinate less its knot. -/
private theorem v14_at (x0 : (⟨S1024x256, .f32⟩ : BufTy).Contents (Elt Ideal)) (x1 : (⟨S256x256, .f32⟩ : BufTy).Contents (Elt Ideal))
    (b : Fin 1024) (o : Fin 256) (k : Fin 256) :
    val_main_v14 (F := Ideal) x0 x1 (ix3 b o k)
      = coordE (x0 (ix2 b k)) (x1 (ix2 o k)) - (((kn x0 x1 b o k : ℕ) : ℝ) : EReal) := by
  rw [val_main_v14_apply, val_main_v13_apply, v12_at, v9_at,
    Words.sitofp_ofNat _ (by have := kn_le x0 x1 b o k; omega)]
  rfl

/-! ## The start indices of the two gathers -/

private theorem idx36 (b : Fin 1024) (o : Fin 256) (k : Fin 256) :
    idx_main_v36 (ix4 b o k (0 : Fin 1)) = ix3 b o k := by
  funext a; match a with | ⟨0, _⟩ => rfl | ⟨1, _⟩ => rfl | ⟨2, _⟩ => rfl
private theorem idx37 (b : Fin 1024) (o : Fin 256) (k : Fin 256) :
    idx_main_v37 (ix4 b o k (0 : Fin 1)) = ix3 b o k := by
  funext a; match a with | ⟨0, _⟩ => rfl | ⟨1, _⟩ => rfl | ⟨2, _⟩ => rfl
private theorem idx38 (b : Fin 1024) (o : Fin 256) (k : Fin 256) :
    idx_main_v38 (ix4 b o k (0 : Fin 1)) = ix3 b o k := by
  funext a; match a with | ⟨0, _⟩ => rfl | ⟨1, _⟩ => rfl | ⟨2, _⟩ => rfl
private theorem idx60 (b : Fin 1024) (o : Fin 256) (k : Fin 256) :
    idx_main_v60 (ix4 b o k (0 : Fin 1)) = ix3 b o k := by
  funext a; match a with | ⟨0, _⟩ => rfl | ⟨1, _⟩ => rfl | ⟨2, _⟩ => rfl
private theorem idx61 (b : Fin 1024) (o : Fin 256) (k : Fin 256) :
    idx_main_v61 (ix4 b o k (0 : Fin 1)) = ix3 b o k := by
  funext a; match a with | ⟨0, _⟩ => rfl | ⟨1, _⟩ => rfl | ⟨2, _⟩ => rfl
private theorem idx62 (b : Fin 1024) (o : Fin 256) (k : Fin 256) :
    idx_main_v62 (ix4 b o k (0 : Fin 1)) = ix3 b o k := by
  funext a; match a with | ⟨0, _⟩ => rfl | ⟨1, _⟩ => rfl | ⟨2, _⟩ => rfl

/-- The row iota, broadcast to (b, o, k), is the word of o. -/
private theorem v16_at (b : Fin 1024) (o : Fin 256) (k : Fin 256) :
    val_main_v16 (F := Ideal) (idx_main_v34 (ix3 b o k)) = BitVec.ofNat 32 o.val := by
  rw [val_main_v16_apply, val_main_v15_apply]
/-- The column iota, broadcast to (b, o, k), is the word of k. -/
private theorem v18_at (b : Fin 1024) (o : Fin 256) (k : Fin 256) :
    val_main_v18 (F := Ideal) (idx_main_v35 (ix3 b o k)) = BitVec.ofNat 32 k.val := by
  rw [val_main_v18_apply, val_main_v17_apply]

/-- The wrapped row number at (b, o, k): the word of o. -/
private theorem v34_at (b : Fin 1024) (o : Fin 256) (k : Fin 256) :
    val_main_v34 (F := Ideal) (ix3 b o k) = BitVec.ofNat 32 o.val := by
  rw [val_main_v34_apply, val_main_v23_apply, val_main_v20_apply, val_main_v22_apply, val_main_v19_apply, val_main_c_4_apply,
    val_main_v21_apply, val_main_c_5_apply, v16_at]
  exact Words.wrap_noop o.val 256 (by have := o.isLt; omega)
/-- The wrapped column number at (b, o, k): the word of k. -/
private theorem v35_at (b : Fin 1024) (o : Fin 256) (k : Fin 256) :
    val_main_v35 (F := Ideal) (ix3 b o k) = BitVec.ofNat 32 k.val := by
  rw [val_main_v35_apply, val_main_v28_apply, val_main_v25_apply, val_main_v27_apply, val_main_v24_apply, val_main_c_6_apply,
    val_main_v26_apply, val_main_c_7_apply, v18_at]
  exact Words.wrap_noop k.val 256 (by have := k.isLt; omega)
/-- The wrapped knot word at (b, o, k): the word of the knot. -/
private theorem v33_at (x0 : (⟨S1024x256, .f32⟩ : BufTy).Contents (Elt Ideal)) (x1 : (⟨S256x256, .f32⟩ : BufTy).Contents (Elt Ideal))
    (b : Fin 1024) (o : Fin 256) (k : Fin 256) :
    val_main_v33 (F := Ideal) x0 x1 (ix3 b o k) = BitVec.ofNat 32 (kn x0 x1 b o k) := by
  rw [val_main_v33_apply, val_main_v30_apply, val_main_v32_apply, val_main_v29_apply, val_main_c_8_apply,
    val_main_v31_apply, val_main_c_9_apply, v12_at]
  exact Words.wrap_noop _ 16 (by have := kn_le x0 x1 b o k; omega)

/-- The three components of the first gather's start index at (b, o, k). -/
private theorem v39_c0 (x0 : (⟨S1024x256, .f32⟩ : BufTy).Contents (Elt Ideal)) (x1 : (⟨S256x256, .f32⟩ : BufTy).Contents (Elt Ideal))
    (b : Fin 1024) (o : Fin 256) (k : Fin 256) :
    val_main_v39 (F := Ideal) x0 x1 (PointGather.comp (ix3 b o k) (0 : Fin 3)) = BitVec.ofNat 32 o.val := by
  unfold val_main_v39
  refine (PointGather.concat3_apply _ _ _ _ (ix3 b o k) (0 : Fin 3)).trans ?_
  show val_main_v36 (F := Ideal) (ix4 b o k (0 : Fin 1)) = _
  rw [val_main_v36_apply, idx36, v34_at]
private theorem v39_c1 (x0 : (⟨S1024x256, .f32⟩ : BufTy).Contents (Elt Ideal)) (x1 : (⟨S256x256, .f32⟩ : BufTy).Contents (Elt Ideal))
    (b : Fin 1024) (o : Fin 256) (k : Fin 256) :
    val_main_v39 (F := Ideal) x0 x1 (PointGather.comp (ix3 b o k) (1 : Fin 3)) = BitVec.ofNat 32 k.val := by
  unfold val_main_v39
  refine (PointGather.concat3_apply _ _ _ _ (ix3 b o k) (1 : Fin 3)).trans ?_
  show val_main_v37 (F := Ideal) (ix4 b o k (0 : Fin 1)) = _
  rw [val_main_v37_apply, idx37, v35_at]
private theorem v39_c2 (x0 : (⟨S1024x256, .f32⟩ : BufTy).Contents (Elt Ideal)) (x1 : (⟨S256x256, .f32⟩ : BufTy).Contents (Elt Ideal))
    (b : Fin 1024) (o : Fin 256) (k : Fin 256) :
    val_main_v39 (F := Ideal) x0 x1 (PointGather.comp (ix3 b o k) (2 : Fin 3)) = BitVec.ofNat 32 (kn x0 x1 b o k) := by
  unfold val_main_v39
  refine (PointGather.concat3_apply _ _ _ _ (ix3 b o k) (2 : Fin 3)).trans ?_
  show val_main_v38 (F := Ideal) x0 x1 (ix4 b o k (0 : Fin 1)) = _
  rw [val_main_v38_apply, idx38, v33_at]

/-- The first gather at (b, o, k): the knot value of edge (o, k) at the left knot. -/
private theorem v40_at (x0 : (⟨S1024x256, .f32⟩ : BufTy).Contents (Elt Ideal)) (x1 : (⟨S256x256, .f32⟩ : BufTy).Contents (Elt Ideal))
    (x2 : (⟨S256x256x16, .f32⟩ : BufTy).Contents (Elt Ideal)) (b : Fin 1024) (o : Fin 256) (k : Fin 256) :
    val_main_v40 (F := Ideal) x0 x1 x2 (ix3 b o k)
      = x2 (ix3 o k (⟨kn x0 x1 b o k, by have := kn_le x0 x1 b o k; omega⟩ : Fin 16)) := by
  have hk := kn_le x0 x1 b o k
  unfold val_main_v40
  refine PointGather.gather_point3_eq _ rfl rfl rfl rfl rfl x2 (val_main_v39 (F := Ideal) x0 x1) (ix3 b o k) o k
    (⟨kn x0 x1 b o k, by omega⟩ : Fin 16) ?_ ?_ ?_
  · rw [v39_c0, Words.toInt_toNat_ofNat _ (by have := o.isLt; omega)]
    have := o.isLt; omega
  · rw [v39_c1, Words.toInt_toNat_ofNat _ (by have := k.isLt; omega)]
    have := k.isLt; omega
  · rw [v39_c2, Words.toInt_toNat_ofNat _ (by omega)]
    show min (kn x0 x1 b o k) (16 - 1) = kn x0 x1 b o k
    omega

/-! ## The second gather: the same with the right neighbour's word -/

/-- Stage 42 at (b, o, k): the word of the knot's right neighbour. -/
private theorem v42_at (x0 : (⟨S1024x256, .f32⟩ : BufTy).Contents (Elt Ideal)) (x1 : (⟨S256x256, .f32⟩ : BufTy).Contents (Elt Ideal))
    (b : Fin 1024) (o : Fin 256) (k : Fin 256) :
    val_main_v42 (F := Ideal) x0 x1 (ix3 b o k) = BitVec.ofNat 32 (kn x0 x1 b o k + 1) := by
  rw [val_main_v42_apply, val_main_v41_apply, val_main_c_10_apply, v12_at]
  exact Words.addi_one _

private theorem v16_at' (b : Fin 1024) (o : Fin 256) (k : Fin 256) :
    val_main_v16 (F := Ideal) (idx_main_v58 (ix3 b o k)) = BitVec.ofNat 32 o.val := by
  rw [val_main_v16_apply, val_main_v15_apply]
private theorem v18_at' (b : Fin 1024) (o : Fin 256) (k : Fin 256) :
    val_main_v18 (F := Ideal) (idx_main_v59 (ix3 b o k)) = BitVec.ofNat 32 k.val := by
  rw [val_main_v18_apply, val_main_v17_apply]

private theorem v58_at (b : Fin 1024) (o : Fin 256) (k : Fin 256) :
    val_main_v58 (F := Ideal) (ix3 b o k) = BitVec.ofNat 32 o.val := by
  rw [val_main_v58_apply, val_main_v47_apply, val_main_v44_apply, val_main_v46_apply, val_main_v43_apply, val_main_c_11_apply,
    val_main_v45_apply, val_main_c_12_apply, v16_at']
  exact Words.wrap_noop o.val 256 (by have := o.isLt; omega)
private theorem v59_at (b : Fin 1024) (o : Fin 256) (k : Fin 256) :
    val_main_v59 (F := Ideal) (ix3 b o k) = BitVec.ofNat 32 k.val := by
  rw [val_main_v59_apply, val_main_v52_apply, val_main_v49_apply, val_main_v51_apply, val_main_v48_apply, val_main_c_13_apply,
    val_main_v50_apply, val_main_c_14_apply, v18_at']
  exact Words.wrap_noop k.val 256 (by have := k.isLt; omega)
private theorem v57_at (x0 : (⟨S1024x256, .f32⟩ : BufTy).Contents (Elt Ideal)) (x1 : (⟨S256x256, .f32⟩ : BufTy).Contents (Elt Ideal))
    (b : Fin 1024) (o : Fin 256) (k : Fin 256) :
    val_main_v57 (F := Ideal) x0 x1 (ix3 b o k) = BitVec.ofNat 32 (kn x0 x1 b o k + 1) := by
  rw [val_main_v57_apply, val_main_v54_apply, val_main_v56_apply, val_main_v53_apply, val_main_c_15_apply,
    val_main_v55_apply, val_main_c_16_apply, v42_at]
  exact Words.wrap_noop _ 16 (by have := kn_le x0 x1 b o k; omega)

private theorem v63_c0 (x0 : (⟨S1024x256, .f32⟩ : BufTy).Contents (Elt Ideal)) (x1 : (⟨S256x256, .f32⟩ : BufTy).Contents (Elt Ideal))
    (b : Fin 1024) (o : Fin 256) (k : Fin 256) :
    val_main_v63 (F := Ideal) x0 x1 (PointGather.comp (ix3 b o k) (0 : Fin 3)) = BitVec.ofNat 32 o.val := by
  unfold val_main_v63
  refine (PointGather.concat3_apply _ _ _ _ (ix3 b o k) (0 : Fin 3)).trans ?_
  show val_main_v60 (F := Ideal) (ix4 b o k (0 : Fin 1)) = _
  rw [val_main_v60_apply, idx60, v58_at]
private theorem v63_c1 (x0 : (⟨S1024x256, .f32⟩ : BufTy).Contents (Elt Ideal)) (x1 : (⟨S256x256, .f32⟩ : BufTy).Contents (Elt Ideal))
    (b : Fin 1024) (o : Fin 256) (k : Fin 256) :
    val_main_v63 (F := Ideal) x0 x1 (PointGather.comp (ix3 b o k) (1 : Fin 3)) = BitVec.ofNat 32 k.val := by
  unfold val_main_v63
  refine (PointGather.concat3_apply _ _ _ _ (ix3 b o k) (1 : Fin 3)).trans ?_
  show val_main_v61 (F := Ideal) (ix4 b o k (0 : Fin 1)) = _
  rw [val_main_v61_apply, idx61, v59_at]
private theorem v63_c2 (x0 : (⟨S1024x256, .f32⟩ : BufTy).Contents (Elt Ideal)) (x1 : (⟨S256x256, .f32⟩ : BufTy).Contents (Elt Ideal))
    (b : Fin 1024) (o : Fin 256) (k : Fin 256) :
    val_main_v63 (F := Ideal) x0 x1 (PointGather.comp (ix3 b o k) (2 : Fin 3)) = BitVec.ofNat 32 (kn x0 x1 b o k + 1) := by
  unfold val_main_v63
  refine (PointGather.concat3_apply _ _ _ _ (ix3 b o k) (2 : Fin 3)).trans ?_
  show val_main_v62 (F := Ideal) x0 x1 (ix4 b o k (0 : Fin 1)) = _
  rw [val_main_v62_apply, idx62, v57_at]

/-- The second gather at (b, o, k): the knot value of edge (o, k) at the right neighbour. -/
private theorem v64_at (x0 : (⟨S1024x256, .f32⟩ : BufTy).Contents (Elt Ideal)) (x1 : (⟨S256x256, .f32⟩ : BufTy).Contents (Elt Ideal))
    (x2 : (⟨S256x256x16, .f32⟩ : BufTy).Contents (Elt Ideal)) (b : Fin 1024) (o : Fin 256) (k : Fin 256) :
    val_main_v64 (F := Ideal) x0 x1 x2 (ix3 b o k)
      = x2 (ix3 o k (⟨kn x0 x1 b o k + 1, by have := kn_le x0 x1 b o k; omega⟩ : Fin 16)) := by
  have hk := kn_le x0 x1 b o k
  unfold val_main_v64
  refine PointGather.gather_point3_eq _ rfl rfl rfl rfl rfl x2 (val_main_v63 (F := Ideal) x0 x1) (ix3 b o k) o k
    (⟨kn x0 x1 b o k + 1, by omega⟩ : Fin 16) ?_ ?_ ?_
  · rw [v63_c0, Words.toInt_toNat_ofNat _ (by have := o.isLt; omega)]
    have := o.isLt; omega
  · rw [v63_c1, Words.toInt_toNat_ofNat _ (by have := k.isLt; omega)]
    have := k.isLt; omega
  · rw [v63_c2, Words.toInt_toNat_ofNat _ (by omega)]
    show min (kn x0 x1 b o k + 1) (16 - 1) = kn x0 x1 b o k + 1
    omega

/-! ## The interpolant, the sum, the bias -/

/-- Stage 67 at (b, o, k): the left knot's value plus the offset times the rise to the right neighbour's. -/
private theorem v67_at (x0 : (⟨S1024x256, .f32⟩ : BufTy).Contents (Elt Ideal)) (x1 : (⟨S256x256, .f32⟩ : BufTy).Contents (Elt Ideal))
    (x2 : (⟨S256x256x16, .f32⟩ : BufTy).Contents (Elt Ideal)) (b : Fin 1024) (o : Fin 256) (k : Fin 256) :
    val_main_v67 (F := Ideal) x0 x1 x2 (ix3 b o k)
      = x2 (ix3 o k (⟨kn x0 x1 b o k, by have := kn_le x0 x1 b o k; omega⟩ : Fin 16))
        + (coordE (x0 (ix2 b k)) (x1 (ix2 o k)) - (((kn x0 x1 b o k : ℕ) : ℝ) : EReal))
          * (x2 (ix3 o k (⟨kn x0 x1 b o k + 1, by have := kn_le x0 x1 b o k; omega⟩ : Fin 16))
              - x2 (ix3 o k (⟨kn x0 x1 b o k, by have := kn_le x0 x1 b o k; omega⟩ : Fin 16))) := by
  rw [val_main_v67_apply, val_main_v66_apply, val_main_v65_apply, v40_at, v64_at, v14_at]
  rfl

private theorem idx68 (b : Fin 1024) (o : Fin 256) (k : Fin 256) :
    idx_main_v68 (ix2 b o) k = ix3 b o k := by
  funext a; match a with | ⟨0, _⟩ => rfl | ⟨1, _⟩ => rfl | ⟨2, _⟩ => rfl

private theorem idxBias (b : Fin 1024) (o : Fin 256) :
    idx_main_v69 (idx_main_v70 (ix2 b o)) = ix1 o := by
  funext a; match a with | ⟨0, _⟩ => rfl

/-- The reference's last stage is the reference-shaped function of the four arguments. -/
theorem ref_eq_G (x0 : (⟨S1024x256, .f32⟩ : BufTy).Contents (Elt Ideal)) (x1 : (⟨S256x256, .f32⟩ : BufTy).Contents (Elt Ideal))
    (x2 : (⟨S256x256x16, .f32⟩ : BufTy).Contents (Elt Ideal)) (x3 : (⟨S256, .f32⟩ : BufTy).Contents (Elt Ideal)) :
    Cert.ReferenceIdeal.ReadP.val_main_v71 (F := Ideal) x0 x1 x2 x3 = G x0 x1 x2 x3 := by
  funext j
  obtain ⟨b, o, rfl⟩ : ∃ (b : Fin 1024) (o : Fin 256), j = ix2 b o := ⟨j 0, j 1, eq_ix2 j⟩
  rw [val_main_v71_apply, val_main_v68_apply, val_main_v70_apply, val_main_v69_apply, val_main_cst_17_apply, idxBias]
  show (Ideal.ofBits .f32 0x00000000#32 + ∑ k : Fin 256, val_main_v67 (F := Ideal) x0 x1 x2 (idx_main_v68 (ix2 b o) k))
      + x3 (ix1 o) = _
  rw [Consts.ofBits_zero]
  unfold G refPointE
  refine congrArg (· + x3 (ix1 o)) (congrArg (((0 : ℝ) : EReal) + ·) (Finset.sum_congr rfl fun k _ => ?_))
  rw [idx68, v67_at]

end Cert.Kan

end
-- ==== Proof.RefRun.lean ====
/-
  The reference program's run, read stage by stage.

  The program is a straight line of 102 host operations. Its memory after the run is the launch memory pushed through
  the operations one after the other, and the result buffer holds the last stage. Two of the operations join three
  index arrays into one; the line is cut in front of each of them, so that each joined piece is read off a memory whose
  earlier history is no longer in sight, and the values that cross a cut are carried as named quantities.
-/
import proofs.«137080_j14714557956115_1_alg».proof.Proof.RefOpsP
import proofs.«137080_j14714557956115_1_alg».proof.Proof.RefReadP
import Idealize.ShloMosaic.Lib.StableHlo.Run
import Idealize.ShloMosaic.Lib.Pipeline.Frame

noncomputable section

namespace Cert.Kan.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The line in three stretches -/

/-- Operations 1 to 61: the grid coordinate, the knot word, the offset, the two iotas, and the three pieces of the first joined index array. -/
abbrev opsA : List (HloOp τ sig (Elt F)) :=
  [ unary main_arg0 main_v0 (broadcastInDim S1024x1x256 ![0, 2] bcast_S1024x256_S1024x1x256_0_2 : (⟨S1024x256, .f32⟩ : BufTy).Contents (Elt F) → (⟨S1024x1x256, .f32⟩ : BufTy).Contents (Elt F)),
    unary main_arg1 main_v1 (broadcastInDim S1x256x256 ![1, 2] bcast_S256x256_S1x256x256_1_2 : (⟨S256x256, .f32⟩ : BufTy).Contents (Elt F) → (⟨S1x256x256, .f32⟩ : BufTy).Contents (Elt F)),
    unary main_v0 main_v2 (broadcastInDim S1024x256x256 ![0, 1, 2] bcast_S1024x1x256_S1024x256x256_0_1_2 : (⟨S1024x1x256, .f32⟩ : BufTy).Contents (Elt F) → (⟨S1024x256x256, .f32⟩ : BufTy).Contents (Elt F)),
    unary main_v1 main_v3 (broadcastInDim S1024x256x256 ![0, 1, 2] bcast_S1x256x256_S1024x256x256_0_1_2 : (⟨S1x256x256, .f32⟩ : BufTy).Contents (Elt F) → (⟨S1024x256x256, .f32⟩ : BufTy).Contents (Elt F)),
    binary main_v2 main_v3 main_v4 (mulf : (⟨S1024x256x256, .f32⟩ : BufTy).Contents (Elt F) → (⟨S1024x256x256, .f32⟩ : BufTy).Contents (Elt F) → (⟨S1024x256x256, .f32⟩ : BufTy).Contents (Elt F)),
    nullary main_cst (constant S_ .f32 0xBF800000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S1024x256x256, .f32⟩) main_call0_v1) (broadcastInDim S1024x256x256 ![] bcast_S_S1024x256x256),
    TRef.binary (TRef.of (T := ⟨S1024x256x256, .f32⟩) main_call0_v1) (TRef.of (T := ⟨S1024x256x256, .f32⟩) main_v4) (TRef.of (T := ⟨S1024x256x256, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S1024x256x256, .f32⟩) main_call0_v4) (broadcastInDim S1024x256x256 ![] bcast_S_S1024x256x256),
    TRef.binary (TRef.of (T := ⟨S1024x256x256, .f32⟩) main_call0_v4) (TRef.of (T := ⟨S1024x256x256, .f32⟩) main_call0_v2) (TRef.of (T := ⟨S1024x256x256, .f32⟩) main_v5) minimumf,
    nullary main_cst_1 (constant S_ .f32 0x3F800000#32),
    unary main_cst_1 main_v6 (broadcastInDim S1024x256x256 ![] bcast_S_S1024x256x256 : (⟨S_, .f32⟩ : BufTy).Contents (Elt F) → (⟨S1024x256x256, .f32⟩ : BufTy).Contents (Elt F)),
    binary main_v5 main_v6 main_v7 (addf : (⟨S1024x256x256, .f32⟩ : BufTy).Contents (Elt F) → (⟨S1024x256x256, .f32⟩ : BufTy).Contents (Elt F) → (⟨S1024x256x256, .f32⟩ : BufTy).Contents (Elt F)),
    nullary main_cst_2 (constant S_ .f32 0x40F00000#32),
    unary main_cst_2 main_v8 (broadcastInDim S1024x256x256 ![] bcast_S_S1024x256x256 : (⟨S_, .f32⟩ : BufTy).Contents (Elt F) → (⟨S1024x256x256, .f32⟩ : BufTy).Contents (Elt F)),
    binary main_v7 main_v8 main_v9 (mulf : (⟨S1024x256x256, .f32⟩ : BufTy).Contents (Elt F) → (⟨S1024x256x256, .f32⟩ : BufTy).Contents (Elt F) → (⟨S1024x256x256, .f32⟩ : BufTy).Contents (Elt F)),
    unary main_v9 main_v10 (Host.floor : (⟨S1024x256x256, .f32⟩ : BufTy).Contents (Elt F) → (⟨S1024x256x256, .f32⟩ : BufTy).Contents (Elt F)),
    unary main_v10 main_v11 (fptosi 32 : (⟨S1024x256x256, .f32⟩ : BufTy).Contents (Elt F) → (⟨S1024x256x256, .i32⟩ : BufTy).Contents (Elt F)),
    nullary main_c (constantI S_ 32 0#32),
    nullary main_c_3 (constantI S_ 32 14#32),
    TRef.unary (TRef.of (T := ⟨S_, .i32⟩) main_c) (TRef.of (T := ⟨S_, .i32⟩) main_call1_v0) id,
    TRef.unary (TRef.of (T := ⟨S_, .i32⟩) main_call1_v0) (TRef.of (T := ⟨S1024x256x256, .i32⟩) main_call1_v1) (broadcastInDim S1024x256x256 ![] bcast_S_S1024x256x256),
    TRef.binary (TRef.of (T := ⟨S1024x256x256, .i32⟩) main_call1_v1) (TRef.of (T := ⟨S1024x256x256, .i32⟩) main_v11) (TRef.of (T := ⟨S1024x256x256, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S1024x256x256, .i32⟩) main_call1_v4) (broadcastInDim S1024x256x256 ![] bcast_S_S1024x256x256),
    TRef.binary (TRef.of (T := ⟨S1024x256x256, .i32⟩) main_call1_v4) (TRef.of (T := ⟨S1024x256x256, .i32⟩) main_call1_v2) (TRef.of (T := ⟨S1024x256x256, .i32⟩) main_v12) minsi,
    unary main_v12 main_v13 (sitofp .f32 : (⟨S1024x256x256, .i32⟩ : BufTy).Contents (Elt F) → (⟨S1024x256x256, .f32⟩ : BufTy).Contents (Elt F)),
    binary main_v9 main_v13 main_v14 (subf : (⟨S1024x256x256, .f32⟩ : BufTy).Contents (Elt F) → (⟨S1024x256x256, .f32⟩ : BufTy).Contents (Elt F) → (⟨S1024x256x256, .f32⟩ : BufTy).Contents (Elt F)),
    nullary main_v15 (iotaInDim S256 32 0),
    unary main_v15 main_v16 (broadcastInDim S1x256x1 ![1] bcast_S256_S1x256x1_1 : (⟨S256, .i32⟩ : BufTy).Contents (Elt F) → (⟨S1x256x1, .i32⟩ : BufTy).Contents (Elt F)),
    nullary main_v17 (iotaInDim S256 32 0),
    unary main_v17 main_v18 (broadcastInDim S1x1x256 ![2] bcast_S256_S1x1x256_2 : (⟨S256, .i32⟩ : BufTy).Contents (Elt F) → (⟨S1x1x256, .i32⟩ : BufTy).Contents (Elt F)),
    nullary main_c_4 (constantI S_ 32 0#32),
    unary main_c_4 main_v19 (broadcastInDim S1x256x1 ![] bcast_S_S1x256x1 : (⟨S_, .i32⟩ : BufTy).Contents (Elt F) → (⟨S1x256x1, .i32⟩ : BufTy).Contents (Elt F)),
    binary main_v16 main_v19 main_v20 (cmpi .slt : (⟨S1x256x1, .i32⟩ : BufTy).Contents (Elt F) → (⟨S1x256x1, .i32⟩ : BufTy).Contents (Elt F) → (⟨S1x256x1, .i1⟩ : BufTy).Contents (Elt F)),
    nullary main_c_5 (constantI S_ 32 256#32),
    unary main_c_5 main_v21 (broadcastInDim S1x256x1 ![] bcast_S_S1x256x1 : (⟨S_, .i32⟩ : BufTy).Contents (Elt F) → (⟨S1x256x1, .i32⟩ : BufTy).Contents (Elt F)),
    binary main_v16 main_v21 main_v22 (addi : (⟨S1x256x1, .i32⟩ : BufTy).Contents (Elt F) → (⟨S1x256x1, .i32⟩ : BufTy).Contents (Elt F) → (⟨S1x256x1, .i32⟩ : BufTy).Contents (Elt F)),
    ternary main_v20 main_v22 main_v16 main_v23 (select : (⟨S1x256x1, .i1⟩ : BufTy).Contents (Elt F) → (⟨S1x256x1, .i32⟩ : BufTy).Contents (Elt F) → (⟨S1x256x1, .i32⟩ : BufTy).Contents (Elt F) → (⟨S1x256x1, .i32⟩ : BufTy).Contents (Elt F)),
    nullary main_c_6 (constantI S_ 32 0#32),
    unary main_c_6 main_v24 (broadcastInDim S1x1x256 ![] bcast_S_S1x1x256 : (⟨S_, .i32⟩ : BufTy).Contents (Elt F) → (⟨S1x1x256, .i32⟩ : BufTy).Contents (Elt F)),
    binary main_v18 main_v24 main_v25 (cmpi .slt : (⟨S1x1x256, .i32⟩ : BufTy).Contents (Elt F) → (⟨S1x1x256, .i32⟩ : BufTy).Contents (Elt F) → (⟨S1x1x256, .i1⟩ : BufTy).Contents (Elt F)),
    nullary main_c_7 (constantI S_ 32 256#32),
    unary main_c_7 main_v26 (broadcastInDim S1x1x256 ![] bcast_S_S1x1x256 : (⟨S_, .i32⟩ : BufTy).Contents (Elt F) → (⟨S1x1x256, .i32⟩ : BufTy).Contents (Elt F)),
    binary main_v18 main_v26 main_v27 (addi : (⟨S1x1x256, .i32⟩ : BufTy).Contents (Elt F) → (⟨S1x1x256, .i32⟩ : BufTy).Contents (Elt F) → (⟨S1x1x256, .i32⟩ : BufTy).Contents (Elt F)),
    ternary main_v25 main_v27 main_v18 main_v28 (select : (⟨S1x1x256, .i1⟩ : BufTy).Contents (Elt F) → (⟨S1x1x256, .i32⟩ : BufTy).Contents (Elt F) → (⟨S1x1x256, .i32⟩ : BufTy).Contents (Elt F) → (⟨S1x1x256, .i32⟩ : BufTy).Contents (Elt F)),
    nullary main_c_8 (constantI S_ 32 0#32),
    unary main_c_8 main_v29 (broadcastInDim S1024x256x256 ![] bcast_S_S1024x256x256 : (⟨S_, .i32⟩ : BufTy).Contents (Elt F) → (⟨S1024x256x256, .i32⟩ : BufTy).Contents (Elt F)),
    binary main_v12 main_v29 main_v30 (cmpi .slt : (⟨S1024x256x256, .i32⟩ : BufTy).Contents (Elt F) → (⟨S1024x256x256, .i32⟩ : BufTy).Contents (Elt F) → (⟨S1024x256x256, .i1⟩ : BufTy).Contents (Elt F)),
    nullary main_c_9 (constantI S_ 32 16#32),
    unary main_c_9 main_v31 (broadcastInDim S1024x256x256 ![] bcast_S_S1024x256x256 : (⟨S_, .i32⟩ : BufTy).Contents (Elt F) → (⟨S1024x256x256, .i32⟩ : BufTy).Contents (Elt F)),
    binary main_v12 main_v31 main_v32 (addi : (⟨S1024x256x256, .i32⟩ : BufTy).Contents (Elt F) → (⟨S1024x256x256, .i32⟩ : BufTy).Contents (Elt F) → (⟨S1024x256x256, .i32⟩ : BufTy).Contents (Elt F)),
    ternary main_v30 main_v32 main_v12 main_v33 (select : (⟨S1024x256x256, .i1⟩ : BufTy).Contents (Elt F) → (⟨S1024x256x256, .i32⟩ : BufTy).Contents (Elt F) → (⟨S1024x256x256, .i32⟩ : BufTy).Contents (Elt F) → (⟨S1024x256x256, .i32⟩ : BufTy).Contents (Elt F)),
    unary main_v23 main_v34 (broadcastInDim S1024x256x256 ![0, 1, 2] bcast_S1x256x1_S1024x256x256_0_1_2 : (⟨S1x256x1, .i32⟩ : BufTy).Contents (Elt F) → (⟨S1024x256x256, .i32⟩ : BufTy).Contents (Elt F)),
    unary main_v28 main_v35 (broadcastInDim S1024x256x256 ![0, 1, 2] bcast_S1x1x256_S1024x256x256_0_1_2 : (⟨S1x1x256, .i32⟩ : BufTy).Contents (Elt F) → (⟨S1024x256x256, .i32⟩ : BufTy).Contents (Elt F)),
    unary main_v34 main_v36 (broadcastInDim S1024x256x256x1 ![0, 1, 2] bcast_S1024x256x256_S1024x256x256x1_0_1_2 : (⟨S1024x256x256, .i32⟩ : BufTy).Contents (Elt F) → (⟨S1024x256x256x1, .i32⟩ : BufTy).Contents (Elt F)),
    unary main_v35 main_v37 (broadcastInDim S1024x256x256x1 ![0, 1, 2] bcast_S1024x256x256_S1024x256x256x1_0_1_2 : (⟨S1024x256x256, .i32⟩ : BufTy).Contents (Elt F) → (⟨S1024x256x256x1, .i32⟩ : BufTy).Contents (Elt F)),
    unary main_v33 main_v38 (broadcastInDim S1024x256x256x1 ![0, 1, 2] bcast_S1024x256x256_S1024x256x256x1_0_1_2 : (⟨S1024x256x256, .i32⟩ : BufTy).Contents (Elt F) → (⟨S1024x256x256x1, .i32⟩ : BufTy).Contents (Elt F)) ]

/-- Operations 62 to 92: the first joined index array, the first gather, and the three pieces of the second joined index array. -/
abbrev opsB : List (HloOp τ sig (Elt F)) :=
  [ nary ![main_v36, main_v37, main_v38] main_v39 (fun u => concatenate S1024x256x256x3 3 [⟨S1024x256x256x1, u 0⟩, ⟨S1024x256x256x1, u 1⟩, ⟨S1024x256x256x1, u 2⟩] concatenates_S1024x256x256x1_S1024x256x256x1_S1024x256x256x1_S1024x256x256x3_d3),
    binary main_arg2 main_v39 main_v40 ((fun x i => Host.gather gather_S256x256x16_S1024x256x256x3_S1024x256x256_n_012_n_n_012_3_111 x i) : (⟨S256x256x16, .f32⟩ : BufTy).Contents (Elt F) → (⟨S1024x256x256x3, .i32⟩ : BufTy).Contents (Elt F) → (⟨S1024x256x256, .f32⟩ : BufTy).Contents (Elt F)),
    nullary main_c_10 (constantI S_ 32 1#32),
    unary main_c_10 main_v41 (broadcastInDim S1024x256x256 ![] bcast_S_S1024x256x256 : (⟨S_, .i32⟩ : BufTy).Contents (Elt F) → (⟨S1024x256x256, .i32⟩ : BufTy).Contents (Elt F)),
    binary main_v12 main_v41 main_v42 (addi : (⟨S1024x256x256, .i32⟩ : BufTy).Contents (Elt F) → (⟨S1024x256x256, .i32⟩ : BufTy).Contents (Elt F) → (⟨S1024x256x256, .i32⟩ : BufTy).Contents (Elt F)),
    nullary main_c_11 (constantI S_ 32 0#32),
    unary main_c_11 main_v43 (broadcastInDim S1x256x1 ![] bcast_S_S1x256x1 : (⟨S_, .i32⟩ : BufTy).Contents (Elt F) → (⟨S1x256x1, .i32⟩ : BufTy).Contents (Elt F)),
    binary main_v16 main_v43 main_v44 (cmpi .slt : (⟨S1x256x1, .i32⟩ : BufTy).Contents (Elt F) → (⟨S1x256x1, .i32⟩ : BufTy).Contents (Elt F) → (⟨S1x256x1, .i1⟩ : BufTy).Contents (Elt F)),
    nullary main_c_12 (constantI S_ 32 256#32),
    unary main_c_12 main_v45 (broadcastInDim S1x256x1 ![] bcast_S_S1x256x1 : (⟨S_, .i32⟩ : BufTy).Contents (Elt F) → (⟨S1x256x1, .i32⟩ : BufTy).Contents (Elt F)),
    binary main_v16 main_v45 main_v46 (addi : (⟨S1x256x1, .i32⟩ : BufTy).Contents (Elt F) → (⟨S1x256x1, .i32⟩ : BufTy).Contents (Elt F) → (⟨S1x256x1, .i32⟩ : BufTy).Contents (Elt F)),
    ternary main_v44 main_v46 main_v16 main_v47 (select : (⟨S1x256x1, .i1⟩ : BufTy).Contents (Elt F) → (⟨S1x256x1, .i32⟩ : BufTy).Contents (Elt F) → (⟨S1x256x1, .i32⟩ : BufTy).Contents (Elt F) → (⟨S1x256x1, .i32⟩ : BufTy).Contents (Elt F)),
    nullary main_c_13 (constantI S_ 32 0#32),
    unary main_c_13 main_v48 (broadcastInDim S1x1x256 ![] bcast_S_S1x1x256 : (⟨S_, .i32⟩ : BufTy).Contents (Elt F) → (⟨S1x1x256, .i32⟩ : BufTy).Contents (Elt F)),
    binary main_v18 main_v48 main_v49 (cmpi .slt : (⟨S1x1x256, .i32⟩ : BufTy).Contents (Elt F) → (⟨S1x1x256, .i32⟩ : BufTy).Contents (Elt F) → (⟨S1x1x256, .i1⟩ : BufTy).Contents (Elt F)),
    nullary main_c_14 (constantI S_ 32 256#32),
    unary main_c_14 main_v50 (broadcastInDim S1x1x256 ![] bcast_S_S1x1x256 : (⟨S_, .i32⟩ : BufTy).Contents (Elt F) → (⟨S1x1x256, .i32⟩ : BufTy).Contents (Elt F)),
    binary main_v18 main_v50 main_v51 (addi : (⟨S1x1x256, .i32⟩ : BufTy).Contents (Elt F) → (⟨S1x1x256, .i32⟩ : BufTy).Contents (Elt F) → (⟨S1x1x256, .i32⟩ : BufTy).Contents (Elt F)),
    ternary main_v49 main_v51 main_v18 main_v52 (select : (⟨S1x1x256, .i1⟩ : BufTy).Contents (Elt F) → (⟨S1x1x256, .i32⟩ : BufTy).Contents (Elt F) → (⟨S1x1x256, .i32⟩ : BufTy).Contents (Elt F) → (⟨S1x1x256, .i32⟩ : BufTy).Contents (Elt F)),
    nullary main_c_15 (constantI S_ 32 0#32),
    unary main_c_15 main_v53 (broadcastInDim S1024x256x256 ![] bcast_S_S1024x256x256 : (⟨S_, .i32⟩ : BufTy).Contents (Elt F) → (⟨S1024x256x256, .i32⟩ : BufTy).Contents (Elt F)),
    binary main_v42 main_v53 main_v54 (cmpi .slt : (⟨S1024x256x256, .i32⟩ : BufTy).Contents (Elt F) → (⟨S1024x256x256, .i32⟩ : BufTy).Contents (Elt F) → (⟨S1024x256x256, .i1⟩ : BufTy).Contents (Elt F)),
    nullary main_c_16 (constantI S_ 32 16#32),
    unary main_c_16 main_v55 (broadcastInDim S1024x256x256 ![] bcast_S_S1024x256x256 : (⟨S_, .i32⟩ : BufTy).Contents (Elt F) → (⟨S1024x256x256, .i32⟩ : BufTy).Contents (Elt F)),
    binary main_v42 main_v55 main_v56 (addi : (⟨S1024x256x256, .i32⟩ : BufTy).Contents (Elt F) → (⟨S1024x256x256, .i32⟩ : BufTy).Contents (Elt F) → (⟨S1024x256x256, .i32⟩ : BufTy).Contents (Elt F)),
    ternary main_v54 main_v56 main_v42 main_v57 (select : (⟨S1024x256x256, .i1⟩ : BufTy).Contents (Elt F) → (⟨S1024x256x256, .i32⟩ : BufTy).Contents (Elt F) → (⟨S1024x256x256, .i32⟩ : BufTy).Contents (Elt F) → (⟨S1024x256x256, .i32⟩ : BufTy).Contents (Elt F)),
    unary main_v47 main_v58 (broadcastInDim S1024x256x256 ![0, 1, 2] bcast_S1x256x1_S1024x256x256_0_1_2 : (⟨S1x256x1, .i32⟩ : BufTy).Contents (Elt F) → (⟨S1024x256x256, .i32⟩ : BufTy).Contents (Elt F)),
    unary main_v52 main_v59 (broadcastInDim S1024x256x256 ![0, 1, 2] bcast_S1x1x256_S1024x256x256_0_1_2 : (⟨S1x1x256, .i32⟩ : BufTy).Contents (Elt F) → (⟨S1024x256x256, .i32⟩ : BufTy).Contents (Elt F)),
    unary main_v58 main_v60 (broadcastInDim S1024x256x256x1 ![0, 1, 2] bcast_S1024x256x256_S1024x256x256x1_0_1_2 : (⟨S1024x256x256, .i32⟩ : BufTy).Contents (Elt F) → (⟨S1024x256x256x1, .i32⟩ : BufTy).Contents (Elt F)),
    unary main_v59 main_v61 (broadcastInDim S1024x256x256x1 ![0, 1, 2] bcast_S1024x256x256_S1024x256x256x1_0_1_2 : (⟨S1024x256x256, .i32⟩ : BufTy).Contents (Elt F) → (⟨S1024x256x256x1, .i32⟩ : BufTy).Contents (Elt F)),
    unary main_v57 main_v62 (broadcastInDim S1024x256x256x1 ![0, 1, 2] bcast_S1024x256x256_S1024x256x256x1_0_1_2 : (⟨S1024x256x256, .i32⟩ : BufTy).Contents (Elt F) → (⟨S1024x256x256x1, .i32⟩ : BufTy).Contents (Elt F)) ]

/-- Operations 93 to 102: the second joined index array, the second gather, the interpolant, the sum and the bias. -/
abbrev opsC : List (HloOp τ sig (Elt F)) :=
  [ nary ![main_v60, main_v61, main_v62] main_v63 (fun u => concatenate S1024x256x256x3 3 [⟨S1024x256x256x1, u 0⟩, ⟨S1024x256x256x1, u 1⟩, ⟨S1024x256x256x1, u 2⟩] concatenates_S1024x256x256x1_S1024x256x256x1_S1024x256x256x1_S1024x256x256x3_d3),
    binary main_arg2 main_v63 main_v64 ((fun x i => Host.gather gather_S256x256x16_S1024x256x256x3_S1024x256x256_n_012_n_n_012_3_111 x i) : (⟨S256x256x16, .f32⟩ : BufTy).Contents (Elt F) → (⟨S1024x256x256x3, .i32⟩ : BufTy).Contents (Elt F) → (⟨S1024x256x256, .f32⟩ : BufTy).Contents (Elt F)),
    binary main_v64 main_v40 main_v65 (subf : (⟨S1024x256x256, .f32⟩ : BufTy).Contents (Elt F) → (⟨S1024x256x256, .f32⟩ : BufTy).Contents (Elt F) → (⟨S1024x256x256, .f32⟩ : BufTy).Contents (Elt F)),
    binary main_v14 main_v65 main_v66 (mulf : (⟨S1024x256x256, .f32⟩ : BufTy).Contents (Elt F) → (⟨S1024x256x256, .f32⟩ : BufTy).Contents (Elt F) → (⟨S1024x256x256, .f32⟩ : BufTy).Contents (Elt F)),
    binary main_v40 main_v66 main_v67 (addf : (⟨S1024x256x256, .f32⟩ : BufTy).Contents (Elt F) → (⟨S1024x256x256, .f32⟩ : BufTy).Contents (Elt F) → (⟨S1024x256x256, .f32⟩ : BufTy).Contents (Elt F)),
    nullary main_cst_17 (constant S_ .f32 0x00000000#32),
    binary main_v67 main_cst_17 main_v68 ((fun x v => Host.reduceAdd x v reducesTo_S1024x256x256_S1024x256_d2 h_S_) : (⟨S1024x256x256, .f32⟩ : BufTy).Contents (Elt F) → (⟨S_, .f32⟩ : BufTy).Contents (Elt F) → (⟨S1024x256, .f32⟩ : BufTy).Contents (Elt F)),
    unary main_arg3 main_v69 (broadcastInDim S1x256 ![1] bcast_S256_S1x256_1 : (⟨S256, .f32⟩ : BufTy).Contents (Elt F) → (⟨S1x256, .f32⟩ : BufTy).Contents (Elt F)),
    unary main_v69 main_v70 (broadcastInDim S1024x256 ![0, 1] bcast_S1x256_S1024x256_0_1 : (⟨S1x256, .f32⟩ : BufTy).Contents (Elt F) → (⟨S1024x256, .f32⟩ : BufTy).Contents (Elt F)),
    binary main_v68 main_v70 main_v71 (addf : (⟨S1024x256, .f32⟩ : BufTy).Contents (Elt F) → (⟨S1024x256, .f32⟩ : BufTy).Contents (Elt F) → (⟨S1024x256, .f32⟩ : BufTy).Contents (Elt F)) ]

/-- The line is the three stretches one after the other. -/
theorem ops_split : (ops : List (HloOp τ sig (Elt F))) = opsA ++ (opsB ++ opsC) := rfl

/-! ## The first stretch, from any memory -/

theorem afterA_v12 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v12) = val_main_v12 (F := F) x0 x1 := by
  subst h0 h1
  after_results_simp <;> rfl

theorem afterA_v14 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v14) = val_main_v14 (F := F) x0 x1 := by
  subst h0 h1
  after_results_simp <;> rfl

theorem afterA_v16 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v16) = val_main_v16 (F := F) := by
  subst h0 h1
  after_results_simp <;> rfl

theorem afterA_v18 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v18) = val_main_v18 (F := F) := by
  subst h0 h1
  after_results_simp <;> rfl

theorem afterA_v36 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v36) = val_main_v36 (F := F) := by
  subst h0 h1
  after_results_simp <;> rfl

theorem afterA_v37 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v37) = val_main_v37 (F := F) := by
  subst h0 h1
  after_results_simp <;> rfl

theorem afterA_v38 (V : Valuation τ sig (Elt F)) (x0 : (⟨S1024x256, .f32⟩ : BufTy).Contents (Elt F)) (x1 : (⟨S256x256, .f32⟩ : BufTy).Contents (Elt F))
    (h0 : V (Proc.devRef .tc main_arg0) = x0) (h1 : V (Proc.devRef .tc main_arg1) = x1) :
    after (opsA (F := F)) V (Proc.devRef .tc main_v38) = val_main_v38 (F := F) x0 x1 := by
  subst h0 h1
  after_results_simp <;> rfl

theorem afterA_arg2 (V : Valuation τ sig (Elt F)) : after (opsA (F := F)) V (Proc.devRef .tc main_arg2) = V (Proc.devRef .tc main_arg2) := by
  after_results_simp <;> rfl

theorem afterA_arg3 (V : Valuation τ sig (Elt F)) : after (opsA (F := F)) V (Proc.devRef .tc main_arg3) = V (Proc.devRef .tc main_arg3) := by
  after_results_simp <;> rfl

/-! ## The middle stretch, from any memory, in terms of the values it takes over -/

theorem afterB_v40 (W : Valuation τ sig (Elt F)) (a36 a37 a38 : (⟨S1024x256x256x1, .i32⟩ : BufTy).Contents (Elt F)) (x2 : (⟨S256x256x16, .f32⟩ : BufTy).Contents (Elt F))
    (h36 : W (Proc.devRef .tc main_v36) = a36) (h37 : W (Proc.devRef .tc main_v37) = a37) (h38 : W (Proc.devRef .tc main_v38) = a38)
    (h2 : W (Proc.devRef .tc main_arg2) = x2) :
    after (opsB (F := F)) W (Proc.devRef .tc main_v40)
      = Host.gather gather_S256x256x16_S1024x256x256x3_S1024x256x256_n_012_n_n_012_3_111 x2
          (concatenate S1024x256x256x3 3 [⟨S1024x256x256x1, a36⟩, ⟨S1024x256x256x1, a37⟩, ⟨S1024x256x256x1, a38⟩]
            concatenates_S1024x256x256x1_S1024x256x256x1_S1024x256x256x1_S1024x256x256x3_d3) := by
  subst h36 h37 h38 h2
  after_results_simp <;> rfl

theorem afterB_v60 (W : Valuation τ sig (Elt F)) (r16 : (⟨S1x256x1, .i32⟩ : BufTy).Contents (Elt F))
    (h16 : W (Proc.devRef .tc main_v16) = r16) :
    after (opsB (F := F)) W (Proc.devRef .tc main_v60)
      = broadcastInDim S1024x256x256x1 ![0, 1, 2] bcast_S1024x256x256_S1024x256x256x1_0_1_2 (broadcastInDim S1024x256x256 ![0, 1, 2] bcast_S1x256x1_S1024x256x256_0_1_2
          (select (cmpi .slt r16 (broadcastInDim S1x256x1 ![] bcast_S_S1x256x1 (constantI S_ 32 0#32))) (addi r16 (broadcastInDim S1x256x1 ![] bcast_S_S1x256x1 (constantI S_ 32 256#32))) r16)) := by
  subst h16
  after_results_simp <;> rfl

theorem afterB_v61 (W : Valuation τ sig (Elt F)) (r18 : (⟨S1x1x256, .i32⟩ : BufTy).Contents (Elt F))
    (h18 : W (Proc.devRef .tc main_v18) = r18) :
    after (opsB (F := F)) W (Proc.devRef .tc main_v61)
      = broadcastInDim S1024x256x256x1 ![0, 1, 2] bcast_S1024x256x256_S1024x256x256x1_0_1_2 (broadcastInDim S1024x256x256 ![0, 1, 2] bcast_S1x1x256_S1024x256x256_0_1_2
          (select (cmpi .slt r18 (broadcastInDim S1x1x256 ![] bcast_S_S1x1x256 (constantI S_ 32 0#32))) (addi r18 (broadcastInDim S1x1x256 ![] bcast_S_S1x1x256 (constantI S_ 32 256#32))) r18)) := by
  subst h18
  after_results_simp <;> rfl

theorem afterB_v62 (W : Valuation τ sig (Elt F)) (w12 : (⟨S1024x256x256, .i32⟩ : BufTy).Contents (Elt F))
    (h12 : W (Proc.devRef .tc main_v12) = w12) :
    after (opsB (F := F)) W (Proc.devRef .tc main_v62)
      = broadcastInDim S1024x256x256x1 ![0, 1, 2] bcast_S1024x256x256_S1024x256x256x1_0_1_2
          (select (cmpi .slt (addi w12 (broadcastInDim S1024x256x256 ![] bcast_S_S1024x256x256 (constantI S_ 32 1#32))) (broadcastInDim S1024x256x256 ![] bcast_S_S1024x256x256 (constantI S_ 32 0#32))) (addi (addi w12 (broadcastInDim S1024x256x256 ![] bcast_S_S1024x256x256 (constantI S_ 32 1#32))) (broadcastInDim S1024x256x256 ![] bcast_S_S1024x256x256 (constantI S_ 32 16#32))) (addi w12 (broadcastInDim S1024x256x256 ![] bcast_S_S1024x256x256 (constantI S_ 32 1#32)))) := by
  subst h12
  after_results_simp <;> rfl

theorem afterB_v14 (W : Valuation τ sig (Elt F)) : after (opsB (F := F)) W (Proc.devRef .tc main_v14) = W (Proc.devRef .tc main_v14) := by
  after_results_simp <;> rfl

theorem afterB_arg2 (W : Valuation τ sig (Elt F)) : after (opsB (F := F)) W (Proc.devRef .tc main_arg2) = W (Proc.devRef .tc main_arg2) := by
  after_results_simp <;> rfl

theorem afterB_arg3 (W : Valuation τ sig (Elt F)) : after (opsB (F := F)) W (Proc.devRef .tc main_arg3) = W (Proc.devRef .tc main_arg3) := by
  after_results_simp <;> rfl

/-! ## The last stretch, from any memory, in terms of the values it takes over -/

theorem afterC_v71 (W : Valuation τ sig (Elt F))
    (g40 f14 : (⟨S1024x256x256, .f32⟩ : BufTy).Contents (Elt F))
    (a60 a61 a62 : (⟨S1024x256x256x1, .i32⟩ : BufTy).Contents (Elt F))
    (x2 : (⟨S256x256x16, .f32⟩ : BufTy).Contents (Elt F)) (x3 : (⟨S256, .f32⟩ : BufTy).Contents (Elt F))
    (h40 : W (Proc.devRef .tc main_v40) = g40) (h14 : W (Proc.devRef .tc main_v14) = f14)
    (h60 : W (Proc.devRef .tc main_v60) = a60) (h61 : W (Proc.devRef .tc main_v61) = a61)
    (h62 : W (Proc.devRef .tc main_v62) = a62)
    (h2 : W (Proc.devRef .tc main_arg2) = x2) (h3 : W (Proc.devRef .tc main_arg3) = x3) :
    after (opsC (F := F)) W (Proc.devRef .tc main_v71)
      = addf (Host.reduceAdd (addf g40 (mulf f14 (subf
            (Host.gather gather_S256x256x16_S1024x256x256x3_S1024x256x256_n_012_n_n_012_3_111 x2
              (concatenate S1024x256x256x3 3 [⟨S1024x256x256x1, a60⟩, ⟨S1024x256x256x1, a61⟩, ⟨S1024x256x256x1, a62⟩]
                concatenates_S1024x256x256x1_S1024x256x256x1_S1024x256x256x1_S1024x256x256x3_d3)) g40)))
          (constant S_ .f32 0x00000000#32) reducesTo_S1024x256x256_S1024x256_d2 h_S_)
        (broadcastInDim S1024x256 ![0, 1] bcast_S1x256_S1024x256_0_1 (broadcastInDim S1x256 ![1] bcast_S256_S1x256_1 x3)) := by
  subst h40 h14 h60 h61 h62 h2 h3
  after_results_simp <;> rfl

/-! ## The three stretches joined -/

/-- The whole line, from any memory: the result buffer holds the last stage of the four arguments' contents. -/
theorem after_v71 (V : Valuation τ sig (Elt F)) (x0 : (⟨S1024x256, .f32⟩ : BufTy).Contents (Elt F)) (x1 : (⟨S256x256, .f32⟩ : BufTy).Contents (Elt F))
    (x2 : (⟨S256x256x16, .f32⟩ : BufTy).Contents (Elt F)) (x3 : (⟨S256, .f32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3) :
    after (ops (F := F)) V (Proc.devRef .tc main_v71) = val_main_v71 (F := F) x0 x1 x2 x3 := by
  rw [ops_split, StableHlo.after_append, StableHlo.after_append]
  have hA2 : after (opsA (F := F)) V (Proc.devRef .tc main_arg2) = x2 := (afterA_arg2 V).trans h2
  have hA3 : after (opsA (F := F)) V (Proc.devRef .tc main_arg3) = x3 := (afterA_arg3 V).trans h3
  have hB40 : after (opsB (F := F)) (after opsA V) (Proc.devRef .tc main_v40) = val_main_v40 (F := F) x0 x1 x2 :=
    afterB_v40 (after opsA V) (val_main_v36 (F := F)) (val_main_v37 (F := F)) (val_main_v38 (F := F) x0 x1) x2
      (afterA_v36 V x0 x1 h0 h1) (afterA_v37 V x0 x1 h0 h1) (afterA_v38 V x0 x1 h0 h1) hA2
  have hB14 : after (opsB (F := F)) (after opsA V) (Proc.devRef .tc main_v14) = val_main_v14 (F := F) x0 x1 :=
    (afterB_v14 (after opsA V)).trans (afterA_v14 V x0 x1 h0 h1)
  have hB60 : after (opsB (F := F)) (after opsA V) (Proc.devRef .tc main_v60) = val_main_v60 (F := F) :=
    afterB_v60 (after opsA V) (val_main_v16 (F := F)) (afterA_v16 V x0 x1 h0 h1)
  have hB61 : after (opsB (F := F)) (after opsA V) (Proc.devRef .tc main_v61) = val_main_v61 (F := F) :=
    afterB_v61 (after opsA V) (val_main_v18 (F := F)) (afterA_v18 V x0 x1 h0 h1)
  have hB62 : after (opsB (F := F)) (after opsA V) (Proc.devRef .tc main_v62) = val_main_v62 (F := F) x0 x1 :=
    afterB_v62 (after opsA V) (val_main_v12 (F := F) x0 x1) (afterA_v12 V x0 x1 h0 h1)
  have hB2 : after (opsB (F := F)) (after opsA V) (Proc.devRef .tc main_arg2) = x2 := (afterB_arg2 (after opsA V)).trans hA2
  have hB3 : after (opsB (F := F)) (after opsA V) (Proc.devRef .tc main_arg3) = x3 := (afterB_arg3 (after opsA V)).trans hA3
  exact afterC_v71 (after opsB (after opsA V)) (val_main_v40 (F := F) x0 x1 x2) (val_main_v14 (F := F) x0 x1)
    (val_main_v60 (F := F)) (val_main_v61 (F := F)) (val_main_v62 (F := F) x0 x1) x2 x3 hB40 hB14 hB60 hB61 hB62 hB2 hB3

set_option maxRecDepth 8192 in
set_option maxHeartbeats 4000000 in
/-- Every weakly fair execution of the reference terminates with the result buffer at the program's last stage
    of the four arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
        = Cert.ReferenceIdeal.ReadP.val_main_v71 (F := F) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c => ⟨(h c main_v71).trans (after_v71 (launchContents m c) _ _ _ _ rfl rfl rfl rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.Kan.RefRun

end
-- ==== Proof.lean ====
/- Equivalence over the extended reals of a spline-edge layer written two ways.

   Every edge (batch row b, output o, input k) carries x[b,k]·W[o,k], clamped to [-1, 1] and mapped onto the knot axis
   [0, 15]; sixteen knot values per edge (o, k) are interpolated piecewise linearly there, the interpolants are summed
   over k, and bias[o] is added. The kernel evaluates the interpolant in the hat basis, knot by knot, each knot's
   weighted values summed over k and the sixteen sums added in order; the reference finds the left knot by floor and
   clip, gathers the two neighbouring knot values, and sums value + offset · difference over k.

   The two agree because at a coordinate in [0, 15] only the left knot and its right neighbour have a non-zero hat
   weight, 1 − offset and offset, and because a finite double sum may be taken in either order. Both steps are
   arithmetic on real numbers, so the precondition (every input finite) is used: for the knot values and the bias.
   The grid coordinate itself is a real number in [0, 15] whatever x and W hold, since the clamp absorbs an infinite
   product. The word-level kernel and the idealized kernel differ in no operation, so the idealization claim is
   empty. -/
import proofs.«137080_j14714557956115_1_alg».proof.Defs
import proofs.«137080_j14714557956115_1_alg».proof.Proof.Gen.Kernel
import proofs.«137080_j14714557956115_1_alg».proof.Proof.Gen.Kernel.Skeleton
import proofs.«137080_j14714557956115_1_alg».proof.Proof.Gen.Kernel.Launch
import proofs.«137080_j14714557956115_1_alg».proof.Proof.Gen.Kernel.Points
import proofs.«137080_j14714557956115_1_alg».proof.Proof.Gen.Kernel.Frame
import proofs.«137080_j14714557956115_1_alg».proof.Proof.Gen.KernelIdeal
import proofs.«137080_j14714557956115_1_alg».proof.Proof.Gen.KernelIdeal.Skeleton
import proofs.«137080_j14714557956115_1_alg».proof.Proof.Gen.KernelIdeal.Launch
import proofs.«137080_j14714557956115_1_alg».proof.Proof.Gen.KernelIdeal.Points
import proofs.«137080_j14714557956115_1_alg».proof.Proof.Gen.KernelIdeal.Frame
import proofs.«137080_j14714557956115_1_alg».proof.Proof.Gen.ReferenceIdeal
import proofs.«137080_j14714557956115_1_alg».proof.Proof.Gen.Pre_finite_inputs
import proofs.«137080_j14714557956115_1_alg».proof.Proof.Gen.KernelIdeal.Value
import proofs.«137080_j14714557956115_1_alg».proof.Proof.Spec
import proofs.«137080_j14714557956115_1_alg».proof.Proof.Bridge
import proofs.«137080_j14714557956115_1_alg».proof.Proof.Finite
import proofs.«137080_j14714557956115_1_alg».proof.Proof.Blocks
import proofs.«137080_j14714557956115_1_alg».proof.Proof.RefAt
import proofs.«137080_j14714557956115_1_alg».proof.Proof.RefRun
import Idealize.ShloMosaic.Adequacy
import Idealize.ShloMosaic.Init

noncomputable section

namespace Cert.Proof

open Idealize.ShloMosaic Idealize.SL.Sem Cert.Kernel

/-- The idealized kernel ends at the kernel-shaped function of the arguments; the idealized reference at the
    reference-shaped one; the arguments agree, and under the precondition the two shapes are one function. -/
theorem algebraic : Cert.algebraic_KernelIdeal_ReferenceIdeal := by
  intro m ρ m' ρ' hpre hagree
  refine ⟨fun c => Cert.Kan.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Kan.kernel_run m ρ, ?_⟩
  refine (θ_run Cert.ReferenceIdeal.defs _ _).mono (fun _ h c => ⟨?_, (h c).2⟩)
    (Cert.Kan.RefRun.run (F := Ideal) m' ρ')
  obtain ⟨hsv, hb⟩ := Cert.Kan.allReal_of_pre _ _ _ _ (hpre c)
  rw [(h c).1, Cert.Kan.ref_eq_G, (hagree c).1, (hagree c).2.1,
    (hagree c).2.2.1, (hagree c).2.2.2]
  exact (Cert.Kan.GK_eq_G _ _ _ _ hsv hb).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.Kan.RefRun.run (F := Ideal) m ρ),
  trivial,
  algebraic⟩

end Cert.Proof

end
